-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S50000x300 : Shape := ⟨2, ![50000, 300]⟩
abbrev S512x300 : Shape := ⟨2, ![512, 300]⟩
abbrev S512x1024 : Shape := ⟨2, ![512, 1024]⟩
abbrev S512 : Shape := ⟨1, ![512]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S512x300 : S_.BroadcastsInDim S512x300 (![] : Fin 0 → Fin S512x300.rank)
  reducesTo_S512x300_S_d0_1 : S512x300.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : IVec S256x256 32) (main_arg1 : FVec F S50000x300 .f32) (main_arg2 : FVec F S512x300 .f32) (main_arg3 : FVec F S512x1024 .f32) (main_arg4 : FVec F S512 .f32) : IVec S_ 1 :=
  let main_v0 : FVec F S50000x300 .f32 := Host.absf main_arg1
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S512x300 .f32 := Host.absf main_arg2
  let main_cst_0 : FVec F S_ .f32 := constant S_ .f32 0x7F800000#32
  let main_v5 : FVec F S512x300 .f32 := broadcastInDim S512x300 ![] bcast_S_S512x300 main_cst_0
  let main_v6 : IVec S512x300 1 := cmpf .olt main_v4 main_v5
  let main_c_1 : IVec S_ 1 := constantI S_ 1 1#1
  let main_v7 : IVec S_ 1 := (fun x v => Host.reduce IntOp.andi x v reducesTo_S512x300_S_d0_1 h_S_) main_v6 main_c_1
  let main_v8 : IVec S_ 1 := andi main_v3 main_v7
  let main_v9 : FVec F S512x1024 .f32 := Host.absf main_arg3
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S256x256 : Shape := ⟨2, ![256, 256]⟩
abbrev S50000x300 : Shape := ⟨2, ![50000, 300]⟩
abbrev S512x300 : Shape := ⟨2, ![512, 300]⟩
abbrev S512x1024 : Shape := ⟨2, ![512, 1024]⟩
abbrev S512 : Shape := ⟨1, ![512]⟩
abbrev S_ : Shape := ⟨0, ![]⟩
abbrev S256x256x1 : Shape := ⟨3, ![256, 256, 1]⟩
abbrev S1 : Shape := ⟨1, ![1]⟩
abbrev S1x1x1 : Shape := ⟨3, ![1, 1, 1]⟩
abbrev S256x256x300 : Shape := ⟨3, ![256, 256, 300]⟩
abbrev S300x512 : Shape := ⟨2, ![300, 512]⟩
abbrev S1024x512 : Shape := ⟨2, ![1024, 512]⟩
abbrev S1x512 : Shape := ⟨2, ![1, 512]⟩
abbrev S256x512 : Shape := ⟨2, ![256, 512]⟩
abbrev S16x256x300 : Shape := ⟨3, ![16, 256, 300]⟩
abbrev S16x512 : Shape := ⟨2, ![16, 512]⟩
abbrev S4096x300 : Shape := ⟨2, ![4096, 300]⟩
abbrev S4096x512 : Shape := ⟨2, ![4096, 512]⟩
abbrev S16x256x512 : Shape := ⟨3, ![16, 256, 512]⟩
abbrev S16x128x1024 : Shape := ⟨3, ![16, 128, 1024]⟩
abbrev S2048x1024 : Shape := ⟨2, ![2048, 1024]⟩
abbrev S2048x512 : Shape := ⟨2, ![2048, 512]⟩
abbrev S16x128x512 : Shape := ⟨3, ![16, 128, 512]⟩
abbrev S16x64x1024 : Shape := ⟨3, ![16, 64, 1024]⟩
abbrev S1024x1024 : Shape := ⟨2, ![1024, 1024]⟩
abbrev S16x64x512 : Shape := ⟨3, ![16, 64, 512]⟩
abbrev S16x32x1024 : Shape := ⟨3, ![16, 32, 1024]⟩
abbrev S512x512 : Shape := ⟨2, ![512, 512]⟩
abbrev S16x32x512 : Shape := ⟨3, ![16, 32, 512]⟩
abbrev S16x16x1024 : Shape := ⟨3, ![16, 16, 1024]⟩
abbrev S256x1024 : Shape := ⟨2, ![256, 1024]⟩
abbrev S16x16x512 : Shape := ⟨3, ![16, 16, 512]⟩
abbrev S16x8x1024 : Shape := ⟨3, ![16, 8, 1024]⟩
abbrev S128x1024 : Shape := ⟨2, ![128, 1024]⟩
abbrev S128x512 : Shape := ⟨2, ![128, 512]⟩
abbrev S16x8x512 : Shape := ⟨3, ![16, 8, 512]⟩
abbrev S16x4x1024 : Shape := ⟨3, ![16, 4, 1024]⟩
abbrev S64x1024 : Shape := ⟨2, ![64, 1024]⟩
abbrev S64x512 : Shape := ⟨2, ![64, 512]⟩
abbrev S16x4x512 : Shape := ⟨3, ![16, 4, 512]⟩
abbrev S16x2x1024 : Shape := ⟨3, ![16, 2, 1024]⟩
abbrev S32x1024 : Shape := ⟨2, ![32, 1024]⟩
abbrev S32x512 : Shape := ⟨2, ![32, 512]⟩
abbrev S16x2x512 : Shape := ⟨3, ![16, 2, 512]⟩
abbrev S16x1x1024 : Shape := ⟨3, ![16, 1, 1024]⟩
abbrev S16x1024 : Shape := ⟨2, ![16, 1024]⟩
abbrev S16x1x512 : Shape := ⟨3, ![16, 1, 512]⟩

abbrev nBuf : Space → Nat
  | .hbm => 35
  | .vmem => 7
  | .smem => 0
  | _ => 0

abbrev bufTy : (tb : Table) → Fin (tcTables nBuf tb) → BufTy
  | .hbm, ⟨0, _⟩ => ⟨S256x256, .i32⟩
  | .hbm, ⟨1, _⟩ => ⟨S50000x300, .f32⟩
  | .hbm, ⟨2, _⟩ => ⟨S512x300, .f32⟩
  | .hbm, ⟨3, _⟩ => ⟨S512x1024, .f32⟩
  | .hbm, ⟨4, _⟩ => ⟨S512, .f32⟩
  | .hbm, ⟨5, _⟩ => ⟨S_, .i32⟩
  | .hbm, ⟨6, _⟩ => ⟨S256x256, .i32⟩
  | .hbm, ⟨7, _⟩ => ⟨S256x256, .i1⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S256x256x1, .i32⟩
  | .hbm, ⟨13, _⟩ => ⟨S1, .i32⟩
  | .hbm, ⟨14, _⟩ => ⟨S_, .i32⟩
  | .hbm, ⟨15, _⟩ => ⟨S256x256x1, .i32⟩
  | .hbm, ⟨16, _⟩ => ⟨S256x256x1, .i1⟩
  | .hbm, ⟨17, _⟩ => ⟨S1x1x1, .i32⟩
  | .hbm, ⟨18, _⟩ => ⟨S256x256x1, .i32⟩
  | .hbm, ⟨19, _⟩ => ⟨S256x256x1, .i1⟩
  | .hbm, ⟨20, _⟩ => ⟨S256x256x1, .i1⟩
  | .hbm, ⟨21, _⟩ => ⟨S_, .i1⟩
  | .hbm, ⟨22, _⟩ => ⟨S256x256, .i1⟩
  | .hbm, ⟨23, _⟩ => ⟨S256x256x300, .f32⟩
  | .hbm, ⟨24, _⟩ => ⟨S256x256x300, .i1⟩
  | .hbm, ⟨25, _⟩ => ⟨S_, .f32⟩
  | .hbm, ⟨26, _⟩ => ⟨S256x256x300, .f32⟩
  | .hbm, ⟨27, _⟩ => ⟨S256x256x300, .f32⟩
  | .hbm, ⟨28, _⟩ => ⟨S256x256x300, .bf16⟩
  | .hbm, ⟨29, _⟩ => ⟨S300x512, .f32⟩
  | .hbm, ⟨30, _⟩ => ⟨S300x512, .bf16⟩
  | .hbm, ⟨31, _⟩ => ⟨S1024x512, .f32⟩
  | .hbm, ⟨32, _⟩ => ⟨S1024x512, .bf16⟩
  | .hbm, ⟨33, _⟩ => ⟨S1x512, .f32⟩
  | .hbm, ⟨34, _⟩ => ⟨S256x512, .f32⟩
  | .local _ .vmem, ⟨0, _⟩ => ⟨S16x256x300, .bf16⟩
  | .local _ .vmem, ⟨1, _⟩ => ⟨S16x256x300, .bf16⟩
  | .local _ .vmem, ⟨2, _⟩ => ⟨S300x512, .bf16⟩
  | .local _ .vmem, ⟨3, _⟩ => ⟨S1024x512, .bf16⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S256x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x300 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S_S256x256x1 : S_.BroadcastsInDim S256x256x1 (![] : Fin 0 → Fin S256x256x1.rank)
  bcast_S1_S1x1x1_2 : S1.BroadcastsInDim S1x1x1 (![2] : Fin 1 → Fin S1x1x1.rank)
  bcast_S1x1x1_S256x256x1_0_1_2 : S1x1x1.BroadcastsInDim S256x256x1 (![0, 1, 2] : Fin 3 → Fin S256x256x1.rank)
  reducesTo_S256x256x1_S256x256_d2 : S256x256x1.ReducesTo [2] S256x256
  h_S_ : 0 < S_.numel
  bcast_S256x256_S256x256x300_0_1 : S256x256.BroadcastsInDim S256x256x300 (![0, 1] : Fin 2 → Fin S256x256x300.rank)
  bcast_S_S256x256x300 : S_.BroadcastsInDim S256x256x300 (![] : Fin 0 → Fin S256x256x300.rank)
  bitsLt_bf16_f32 : FTy.bits .bf16 < FTy.bits .f32
  transposes_S512x300_S300x512_1_0 : S512x300.Transposes [1, 0] S300x512
  transposes_S512x1024_S1024x512_1_0 : S512x1024.Transposes [1, 0] S1024x512
  shapeCasts_S512_S1x512 : S512.ShapeCasts S1x512
  inb_S16x256x300_S16x256x300_0_0_0 : ∀ a, (![0, 0, 0] : Fin 3 → Nat) a + S16x256x300.size a ≤ S16x256x300.size a
  h_S16x256x300 : 0 < S16x256x300.numel
  shapeCasts_S16x256x300_S16x256x300 : S16x256x300.ShapeCasts S16x256x300
  inb_S300x512_S300x512_0_0 : ∀ a, (![0, 0] : Fin 2 → Nat) a + S300x512.size a ≤ S300x512.size a
  h_S300x512 : 0 < S300x512.numel
  shapeCasts_S300x512_S300x512 : S300x512.ShapeCasts S300x512
  shapeCasts_S16x256x300_S4096x300 : S16x256x300.ShapeCasts S4096x300
  shapeCasts_S4096x512_S16x256x512 : S4096x512.ShapeCasts S16x256x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S16x256x512_S16x128x1024 : S16x256x512.ShapeCasts S16x128x1024
  shapeCasts_S16x128x1024_S2048x1024 : S16x128x1024.ShapeCasts S2048x1024
  broadcasts_S1x512_S2048x512 : S1x512.Broadcasts S2048x512
  shapeCasts_S2048x512_S16x128x512 : S2048x512.ShapeCasts S16x128x512
  shapeCasts_S16x128x512_S16x64x1024 : S16x128x512.ShapeCasts S16x64x1024
  shapeCasts_S16x64x1024_S1024x1024 : S16x64x1024.ShapeCasts S1024x1024
  broadcasts_S1x512_S1024x512 : S1x512.Broadcasts S1024x512
  shapeCasts_S1024x512_S16x64x512 : S1024x512.ShapeCasts S16x64x512
  shapeCasts_S16x64x512_S16x32x1024 : S16x64x512.ShapeCasts S16x32x1024
  shapeCasts_S16x32x1024_S512x1024 : S16x32x1024.ShapeCasts S512x1024
  broadcasts_S1x512_S512x512 : S1x512.Broadcasts S512x512
  shapeCasts_S512x512_S16x32x512 : S512x512.ShapeCasts S16x32x512
  shapeCasts_S16x32x512_S16x16x1024 : S16x32x512.ShapeCasts S16x16x1024
  shapeCasts_S16x16x1024_S256x1024 : S16x16x1024.ShapeCasts S256x1024
  broadcasts_S1x512_S256x512 : S1x512.Broadcasts S256x512
  shapeCasts_S256x512_S16x16x512 : S256x512.ShapeCasts S16x16x512
  shapeCasts_S16x16x512_S16x8x1024 : S16x16x512.ShapeCasts S16x8x1024
  shapeCasts_S16x8x1024_S128x1024 : S16x8x1024.ShapeCasts S128x1024
  broadcasts_S1x512_S128x512 : S1x512.Broadcasts S128x512
  shapeCasts_S128x512_S16x8x512 : S128x512.ShapeCasts S16x8x512
  shapeCasts_S16x8x512_S16x4x1024 : S16x8x512.ShapeCasts S16x4x1024
  shapeCasts_S16x4x1024_S64x1024 : S16x4x1024.ShapeCasts S64x1024
  broadcasts_S1x512_S64x512 : S1x512.Broadcasts S64x512
  shapeCasts_S64x512_S16x4x512 : S64x512.ShapeCasts S16x4x512
  shapeCasts_S16x4x512_S16x2x1024 : S16x4x512.ShapeCasts S16x2x1024
  shapeCasts_S16x2x1024_S32x1024 : S16x2x1024.ShapeCasts S32x1024
  broadcasts_S1x512_S32x512 : S1x512.Broadcasts S32x512
  shapeCasts_S32x512_S16x2x512 : S32x512.ShapeCasts S16x2x512
  shapeCasts_S16x2x512_S16x1x1024 : S16x2x512.ShapeCasts S16x1x1024
  shapeCasts_S16x1x1024_S16x1024 : S16x1x1024.ShapeCasts S16x1024
  broadcasts_S1x512_S16x512 : S1x512.Broadcasts S16x512
  shapeCasts_S16x512_S16x1x512 : S16x512.ShapeCasts S16x1x512
  shapeCasts_S16x1x512_S16x512 : S16x1x512.ShapeCasts S16x512
  inb_S16x512_S16x512_0_0 : ∀ a, (![0, 0] : Fin 2 → Nat) a + S16x512.size a ≤ S16x512.size a
  h_S16x512 : 0 < S16x512.numel
  gather_S50000x300_S256x256x1_S256x256x300_2_0_n_n_0_2_1300_wf : GatherDims.WF S50000x300 S256x256x1 S256x256x300 [2] [0] [] [0] [] 2 ![1, 300]
  dot_S4096x300_S300x512_S4096x512_1_0_0_1_n_n_wf : DotDims.WF S4096x300 S300x512 S4096x512 [1] [0] [0] [1] [] []
  dot_S2048x1024_S1024x512_S2048x512_1_0_0_1_n_n_wf : DotDims.WF S2048x1024 S1024x512 S2048x512 [1] [0] [0] [1] [] []
  dot_S1024x1024_S1024x512_S1024x512_1_0_0_1_n_n_wf : DotDims.WF S1024x1024 S1024x512 S1024x512 [1] [0] [0] [1] [] []
  dot_S512x1024_S1024x512_S512x512_1_0_0_1_n_n_wf : DotDims.WF S512x1024 S1024x512 S512x512 [1] [0] [0] [1] [] []
  dot_S256x1024_S1024x512_S256x512_1_0_0_1_n_n_wf : DotDims.WF S256x1024 S1024x512 S256x512 [1] [0] [0] [1] [] []
  dot_S128x1024_S1024x512_S128x512_1_0_0_1_n_n_wf : DotDims.WF S128x1024 S1024x512 S128x512 [1] [0] [0] [1] [] []
  dot_S64x1024_S1024x512_S64x512_1_0_0_1_n_n_wf : DotDims.WF S64x1024 S1024x512 S64x512 [1] [0] [0] [1] [] []
  dot_S32x1024_S1024x512_S32x512_1_0_0_1_n_n_wf : DotDims.WF S32x1024 S1024x512 S32x512 [1] [0] [0] [1] [] []
  dot_S16x1024_S1024x512_S16x512_1_0_0_1_n_n_wf : DotDims.WF S16x1024 S1024x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x300.size a ≤ S256x256x300.size a
  hwx0_0 : ∀ i : grid0.Coords, EltTy.bits .bf16 = 32 ∨ (Rect.block (s := S256x256x300) S16x256x300.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x512.size a ≤ S300x512.size a
  hwx0_1 : ∀ i : grid0.Coords, EltTy.bits .bf16 = 32 ∨ (Rect.block (s := S300x512) S300x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S256x512.size a
  hwx0_4 : ∀ i : grid0.Coords, EltTy.bits .f32 = 32 ∨ (Rect.block (s := S256x512) S16x512.size (cc0_transform_4 i) (hinb0_4 i)).WholeWords (EltTy.packing .f32)

variable [Facts₀]

def gather_S50000x300_S256x256x1_S256x256x300_2_0_n_n_0_2_1300 : GatherDims S50000x300 S256x256x1 S256x256x300 where
  offsetDims := [2]
  collapsedSliceDims := [0]
  operandBatchingDims := []
  startIndicesBatchingDims := []
  startIndexMap := [0]
  indexVectorDim := 2
  sliceSizes := ![1, 300]
  wf := gather_S50000x300_S256x256x1_S256x256x300_2_0_n_n_0_2_1300_wf
def dot_S4096x300_S300x512_S4096x512_1_0_0_1_n_n : DotDims S4096x300 S300x512 S4096x512 where
  lhsContracting := [1]
  rhsContracting := [0]
  lhsNonContracting := [0]
  rhsNonContracting := [1]
  lhsBatch := []
  rhsBatch := []
  wf := dot_S4096x300_S300x512_S4096x512_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf

abbrev win0_0 : Pipeline.Window sig grid0 :=
  Pipeline.Window.ofSpec (Memref.whole main_v1) S16x256x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S300x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S16x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x256 : Shape := ⟨2, ![256, 256]⟩
abbrev S50000x300 : Shape := ⟨2, ![50000, 300]⟩
abbrev S512x300 : Shape := ⟨2, ![512, 300]⟩
abbrev S512x1024 : Shape := ⟨2, ![512, 1024]⟩
abbrev S512 : Shape := ⟨1, ![512]⟩
abbrev S_ : Shape := ⟨0, ![]⟩
abbrev S256x256x1 : Shape := ⟨3, ![256, 256, 1]⟩
abbrev S1 : Shape := ⟨1, ![1]⟩
abbrev S1x1x1 : Shape := ⟨3, ![1, 1, 1]⟩
abbrev S256x256x300 : Shape := ⟨3, ![256, 256, 300]⟩
abbrev S256x256x512 : Shape := ⟨3, ![256, 256, 512]⟩
abbrev S256x128x1024 : Shape := ⟨3, ![256, 128, 1024]⟩
abbrev S256x128x512 : Shape := ⟨3, ![256, 128, 512]⟩
abbrev S1x1x512 : Shape := ⟨3, ![1, 1, 512]⟩
abbrev S256x64x1024 : Shape := ⟨3, ![256, 64, 1024]⟩
abbrev S256x64x512 : Shape := ⟨3, ![256, 64, 512]⟩
abbrev S256x32x1024 : Shape := ⟨3, ![256, 32, 1024]⟩
abbrev S256x32x512 : Shape := ⟨3, ![256, 32, 512]⟩
abbrev S256x16x1024 : Shape := ⟨3, ![256, 16, 1024]⟩
abbrev S256x16x512 : Shape := ⟨3, ![256, 16, 512]⟩
abbrev S256x8x1024 : Shape := ⟨3, ![256, 8, 1024]⟩
abbrev S256x8x512 : Shape := ⟨3, ![256, 8, 512]⟩
abbrev S256x4x1024 : Shape := ⟨3, ![256, 4, 1024]⟩
abbrev S256x4x512 : Shape := ⟨3, ![256, 4, 512]⟩
abbrev S256x2x1024 : Shape := ⟨3, ![256, 2, 1024]⟩
abbrev S256x2x512 : Shape := ⟨3, ![256, 2, 512]⟩
abbrev S256x1x1024 : Shape := ⟨3, ![256, 1, 1024]⟩
abbrev S256x1x512 : Shape := ⟨3, ![256, 1, 512]⟩
abbrev S256x512 : Shape := ⟨2, ![256, 512]⟩

abbrev nBuf : Space → Nat
  | .hbm => 70
  | .vmem => 0
  | .smem => 0
  | _ => 0

abbrev bufTy : (tb : Table) → Fin (tcTables nBuf tb) → BufTy
  | .hbm, ⟨0, _⟩ => ⟨S256x256, .i32⟩
  | .hbm, ⟨1, _⟩ => ⟨S50000x300, .f32⟩
  | .hbm, ⟨2, _⟩ => ⟨S512x300, .f32⟩
  | .hbm, ⟨3, _⟩ => ⟨S512x1024, .f32⟩
  | .hbm, ⟨4, _⟩ => ⟨S512, .f32⟩
  | .hbm, ⟨5, _⟩ => ⟨S_, .i32⟩
  | .hbm, ⟨6, _⟩ => ⟨S256x256, .i32⟩
  | .hbm, ⟨7, _⟩ => ⟨S256x256, .i1⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S256x256x1, .i32⟩
  | .hbm, ⟨13, _⟩ => ⟨S1, .i32⟩
  | .hbm, ⟨14, _⟩ => ⟨S_, .i32⟩
  | .hbm, ⟨15, _⟩ => ⟨S256x256x1, .i32⟩
  | .hbm, ⟨16, _⟩ => ⟨S256x256x1, .i1⟩
  | .hbm, ⟨17, _⟩ => ⟨S1x1x1, .i32⟩
  | .hbm, ⟨18, _⟩ => ⟨S256x256x1, .i32⟩
  | .hbm, ⟨19, _⟩ => ⟨S256x256x1, .i1⟩
  | .hbm, ⟨20, _⟩ => ⟨S256x256x1, .i1⟩
  | .hbm, ⟨21, _⟩ => ⟨S_, .i1⟩
  | .hbm, ⟨22, _⟩ => ⟨S256x256, .i1⟩
  | .hbm, ⟨23, _⟩ => ⟨S256x256x300, .f32⟩
  | .hbm, ⟨24, _⟩ => ⟨S256x256x300, .i1⟩
  | .hbm, ⟨25, _⟩ => ⟨S_, .f32⟩
  | .hbm, ⟨26, _⟩ => ⟨S256x256x300, .f32⟩
  | .hbm, ⟨27, _⟩ => ⟨S256x256x300, .f32⟩
  | .hbm, ⟨28, _⟩ => ⟨S256x256x512, .f32⟩
  | .hbm, ⟨29, _⟩ => ⟨S256x128x1024, .f32⟩
  | .hbm, ⟨30, _⟩ => ⟨S256x128x512, .f32⟩
  | .hbm, ⟨31, _⟩ => ⟨S1x1x512, .f32⟩
  | .hbm, ⟨32, _⟩ => ⟨S256x128x512, .f32⟩
  | .hbm, ⟨33, _⟩ => ⟨S256x128x512, .f32⟩
  | .hbm, ⟨34, _⟩ => ⟨S256x64x1024, .f32⟩
  | .hbm, ⟨35, _⟩ => ⟨S256x64x512, .f32⟩
  | .hbm, ⟨36, _⟩ => ⟨S1x1x512, .f32⟩
  | .hbm, ⟨37, _⟩ => ⟨S256x64x512, .f32⟩
  | .hbm, ⟨38, _⟩ => ⟨S256x64x512, .f32⟩
  | .hbm, ⟨39, _⟩ => ⟨S256x32x1024, .f32⟩
  | .hbm, ⟨40, _⟩ => ⟨S256x32x512, .f32⟩
  | .hbm, ⟨41, _⟩ => ⟨S1x1x512, .f32⟩
  | .hbm, ⟨42, _⟩ => ⟨S256x32x512, .f32⟩
  | .hbm, ⟨43, _⟩ => ⟨S256x32x512, .f32⟩
  | .hbm, ⟨44, _⟩ => ⟨S256x16x1024, .f32⟩
  | .hbm, ⟨45, _⟩ => ⟨S256x16x512, .f32⟩
  | .hbm, ⟨46, _⟩ => ⟨S1x1x512, .f32⟩
  | .hbm, ⟨47, _⟩ => ⟨S256x16x512, .f32⟩
  | .hbm, ⟨48, _⟩ => ⟨S256x16x512, .f32⟩
  | .hbm, ⟨49, _⟩ => ⟨S256x8x1024, .f32⟩
  | .hbm, ⟨50, _⟩ => ⟨S256x8x512, .f32⟩
  | .hbm, ⟨51, _⟩ => ⟨S1x1x512, .f32⟩
  | .hbm, ⟨52, _⟩ => ⟨S256x8x512, .f32⟩
  | .hbm, ⟨53, _⟩ => ⟨S256x8x512, .f32⟩
  | .hbm, ⟨54, _⟩ => ⟨S256x4x1024, .f32⟩
  | .hbm, ⟨55, _⟩ => ⟨S256x4x512, .f32⟩
  | .hbm, ⟨56, _⟩ => ⟨S1x1x512, .f32⟩
  | .hbm, ⟨57, _⟩ => ⟨S256x4x512, .f32⟩
  | .hbm, ⟨58, _⟩ => ⟨S256x4x512, .f32⟩
  | .hbm, ⟨59, _⟩ => ⟨S256x2x1024, .f32⟩
  | .hbm, ⟨60, _⟩ => ⟨S256x2x512, .f32⟩
  | .hbm, ⟨61, _⟩ => ⟨S1x1x512, .f32⟩
  | .hbm, ⟨62, _⟩ => ⟨S256x2x512, .f32⟩
  | .hbm, ⟨63, _⟩ => ⟨S256x2x512, .f32⟩
  | .hbm, ⟨64, _⟩ => ⟨S256x1x1024, .f32⟩
  | .hbm, ⟨65, _⟩ => ⟨S256x1x512, .f32⟩
  | .hbm, ⟨66, _⟩ => ⟨S1x1x512, .f32⟩
  | .hbm, ⟨67, _⟩ => ⟨S256x1x512, .f32⟩
  | .hbm, ⟨68, _⟩ => ⟨S256x1x512, .f32⟩
  | .hbm, ⟨69, _⟩ => ⟨S256x512, .f32⟩
  | _, _ => ⟨S256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S_S256x256x1 : S_.BroadcastsInDim S256x256x1 (![] : Fin 0 → Fin S256x256x1.rank)
  bcast_S1_S1x1x1_2 : S1.BroadcastsInDim S1x1x1 (![2] : Fin 1 → Fin S1x1x1.rank)
  bcast_S1x1x1_S256x256x1_0_1_2 : S1x1x1.BroadcastsInDim S256x256x1 (![0, 1, 2] : Fin 3 → Fin S256x256x1.rank)
  reducesTo_S256x256x1_S256x256_d2 : S256x256x1.ReducesTo [2] S256x256
  h_S_ : 0 < S_.numel
  bcast_S256x256_S256x256x300_0_1 : S256x256.BroadcastsInDim S256x256x300 (![0, 1] : Fin 2 → Fin S256x256x300.rank)
  bcast_S_S256x256x300 : S_.BroadcastsInDim S256x256x300 (![] : Fin 0 → Fin S256x256x300.rank)
  shapeCasts_S256x256x512_S256x128x1024 : S256x256x512.ShapeCasts S256x128x1024
  bcast_S512_S1x1x512_2 : S512.BroadcastsInDim S1x1x512 (![2] : Fin 1 → Fin S1x1x512.rank)
  bcast_S1x1x512_S256x128x512_0_1_2 : S1x1x512.BroadcastsInDim S256x128x512 (![0, 1, 2] : Fin 3 → Fin S256x128x512.rank)
  shapeCasts_S256x128x512_S256x64x1024 : S256x128x512.ShapeCasts S256x64x1024
  bcast_S1x1x512_S256x64x512_0_1_2 : S1x1x512.BroadcastsInDim S256x64x512 (![0, 1, 2] : Fin 3 → Fin S256x64x512.rank)
  shapeCasts_S256x64x512_S256x32x1024 : S256x64x512.ShapeCasts S256x32x1024
  bcast_S1x1x512_S256x32x512_0_1_2 : S1x1x512.BroadcastsInDim S256x32x512 (![0, 1, 2] : Fin 3 → Fin S256x32x512.rank)
  shapeCasts_S256x32x512_S256x16x1024 : S256x32x512.ShapeCasts S256x16x1024
  bcast_S1x1x512_S256x16x512_0_1_2 : S1x1x512.BroadcastsInDim S256x16x512 (![0, 1, 2] : Fin 3 → Fin S256x16x512.rank)
  shapeCasts_S256x16x512_S256x8x1024 : S256x16x512.ShapeCasts S256x8x1024
  bcast_S1x1x512_S256x8x512_0_1_2 : S1x1x512.BroadcastsInDim S256x8x512 (![0, 1, 2] : Fin 3 → Fin S256x8x512.rank)
  shapeCasts_S256x8x512_S256x4x1024 : S256x8x512.ShapeCasts S256x4x1024
  bcast_S1x1x512_S256x4x512_0_1_2 : S1x1x512.BroadcastsInDim S256x4x512 (![0, 1, 2] : Fin 3 → Fin S256x4x512.rank)
  shapeCasts_S256x4x512_S256x2x1024 : S256x4x512.ShapeCasts S256x2x1024
  bcast_S1x1x512_S256x2x512_0_1_2 : S1x1x512.BroadcastsInDim S256x2x512 (![0, 1, 2] : Fin 3 → Fin S256x2x512.rank)
  shapeCasts_S256x2x512_S256x1x1024 : S256x2x512.ShapeCasts S256x1x1024
  bcast_S1x1x512_S256x1x512_0_1_2 : S1x1x512.BroadcastsInDim S256x1x512 (![0, 1, 2] : Fin 3 → Fin S256x1x512.rank)
  shapeCasts_S256x1x512_S256x512 : S256x1x512.ShapeCasts S256x512
  gather_S50000x300_S256x256x1_S256x256x300_2_0_n_n_0_2_1300_wf : GatherDims.WF S50000x300 S256x256x1 S256x256x300 [2] [0] [] [0] [] 2 ![1, 300]
  dot_S256x256x300_S512x300_S256x256x512_2_1_01_0_n_n_wf : DotDims.WF S256x256x300 S512x300 S256x256x512 [2] [1] [0, 1] [0] [] []
  dot_S256x128x1024_S512x1024_S256x128x512_2_1_01_0_n_n_wf : DotDims.WF S256x128x1024 S512x1024 S256x128x512 [2] [1] [0, 1] [0] [] []
  dot_S256x64x1024_S512x1024_S256x64x512_2_1_01_0_n_n_wf : DotDims.WF S256x64x1024 S512x1024 S256x64x512 [2] [1] [0, 1] [0] [] []
  dot_S256x32x1024_S512x1024_S256x32x512_2_1_01_0_n_n_wf : DotDims.WF S256x32x1024 S512x1024 S256x32x512 [2] [1] [0, 1] [0] [] []
  dot_S256x16x1024_S512x1024_S256x16x512_2_1_01_0_n_n_wf : DotDims.WF S256x16x1024 S512x1024 S256x16x512 [2] [1] [0, 1] [0] [] []
  dot_S256x8x1024_S512x1024_S256x8x512_2_1_01_0_n_n_wf : DotDims.WF S256x8x1024 S512x1024 S256x8x512 [2] [1] [0, 1] [0] [] []
  dot_S256x4x1024_S512x1024_S256x4x512_2_1_01_0_n_n_wf : DotDims.WF S256x4x1024 S512x1024 S256x4x512 [2] [1] [0, 1] [0] [] []
  dot_S256x2x1024_S512x1024_S256x2x512_2_1_01_0_n_n_wf : DotDims.WF S256x2x1024 S512x1024 S256x2x512 [2] [1] [0, 1] [0] [] []
  dot_S256x1x1024_S512x1024_S256x1x512_2_1_01_0_n_n_wf : DotDims.WF S256x1x1024 S512x1024 S256x1x512 [2] [1] [0, 1] [0] [] []

variable [Facts₀]

def gather_S50000x300_S256x256x1_S256x256x300_2_0_n_n_0_2_1300 : GatherDims S50000x300 S256x256x1 S256x256x300 where
  offsetDims := [2]
  collapsedSliceDims := [0]
  operandBatchingDims := []
  startIndicesBatchingDims := []
  startIndexMap := [0]
  indexVectorDim := 2
  sliceSizes := ![1, 300]
  wf := gather_S50000x300_S256x256x1_S256x256x300_2_0_n_n_0_2_1300_wf
def dot_S256x256x300_S512x300_S256x256x512_2_1_01_0_n_n : DotDims S256x256x300 S512x300 S256x256x512 where
  lhsContracting := [2]
  rhsContracting := [1]
  lhsNonContracting := [0, 1]
  rhsNonContracting := [0]
  lhsBatch := []
  rhsBatch := []
  wf := dot_S256x256x300_S512x300_S256x256x512_2_1_01_0_n_n_wf
def dot_S256x128x1024_S512x1024_S256x128x512_2_1_01_0_n_n : DotDims S256x128x1024 S512x1024 S256x128x512 where
  lhsContracting := [2]
  rhsContracting := [1]
  lhsNonContracting := [0, 1]
  rhsNonContracting := [0]
  lhsBatch := []
  rhsBatch := []
  wf := dot_S256x128x1024_S512x1024_S256x128x512_2_1_01_0_n_n_wf
def dot_S256x64x1024_S512x1024_S256x64x512_2_1_01_0_n_n : DotDims S256x64x1024 S512x1024 S256x64x512 where
  lhsContracting := [2]
  rhsContracting := [1]
  lhsNonContracting := [0, 1]
  rhsNonContracting := [0]
  lhsBatch := []
  rhsBatch := []
  wf := dot_S256x64x1024_S512x1024_S256x64x512_2_1_01_0_n_n_wf
def dot_S256x32x1024_S512x1024_S256x32x512_2_1_01_0_n_n : DotDims S256x32x1024 S512x1024 S256x32x512 where
  lhsContracting := [2]
  rhsContracting := [1]
  lhsNonContracting := [0, 1]
  rhsNonContracting := [0]
  lhsBatch := []
  rhsBatch := []
  wf := dot_S256x32x1024_S512x1024_S256x32x512_2_1_01_0_n_n_wf
def dot_S256x16x1024_S512x1024_S256x16x512_2_1_01_0_n_n : DotDims S256x16x1024 S512x1024 S256x16x512 where
  lhsContracting := [2]
  rhsContracting := [1]
  lhsNonContracting := [0, 1]
  rhsNonContracting := [0]
  lhsBatch := []
  rhsBatch := []
  wf := dot_S256x16x1024_S512x1024_S256x16x512_2_1_01_0_n_n_wf
def dot_S256x8x1024_S512x1024_S256x8x512_2_1_01_0_n_n : DotDims S256x8x1024 S512x1024 S256x8x512 where
  lhsContracting := [2]
  rhsContracting := [1]
  lhsNonContracting := [0, 1]
  rhsNonContracting := [0]
  lhsBatch := []
  rhsBatch := []
  wf := dot_S256x8x1024_S512x1024_S256x8x512_2_1_01_0_n_n_wf
def dot_S256x4x1024_S512x1024_S256x4x512_2_1_01_0_n_n : DotDims S256x4x1024 S512x1024 S256x4x512 where
  lhsContracting := [2]
  rhsContracting := [1]
  lhsNonContracting := [0, 1]
  rhsNonContracting := [0]
  lhsBatch := []
  rhsBatch := []
  wf := dot_S256x4x1024_S512x1024_S256x4x512_2_1_01_0_n_n_wf
def dot_S256x2x1024_S512x1024_S256x2x512_2_1_01_0_n_n : DotDims S256x2x1024 S512x1024 S256x2x512 where
  lhsContracting := [2]
  rhsContracting := [1]
  lhsNonContracting := [0, 1]
  rhsNonContracting := [0]
  lhsBatch := []
  rhsBatch := []
  wf := dot_S256x2x1024_S512x1024_S256x2x512_2_1_01_0_n_n_wf
def dot_S256x1x1024_S512x1024_S256x1x512_2_1_01_0_n_n : DotDims S256x1x1024 S512x1024 S256x1x512 where
  lhsContracting := [2]
  rhsContracting := [1]
  lhsNonContracting := [0, 1]
  rhsNonContracting := [0]
  lhsBatch := []
  rhsBatch := []
  wf := dot_S256x1x1024_S512x1024_S256x1x512_2_1_01_0_n_n_wf

class Facts : Prop extends Facts₀ where

variable [Facts]
-- ==== Proof.LibPairTree.lean ====
/-
  A binary tree of hidden vectors, level by level, read at an index.

  The value computed over a complete binary tree: the leaves are rows of a matrix X (one row per leaf, 300 coordinates)
  projected by W1 to 512 coordinates; every further level halves the number of rows, the new row r being the two old
  rows 2r and 2r+1 laid side by side (1024 coordinates) contracted with W2, plus the bias b2. Written over natural-number
  row and column indices this is the recursion `lvl`. The lemmas below read at an index the two ways a program spells
  one level — a matrix product of the pair matrix [R, 1024] with W2ᵀ [1024, 512] into a zero accumulator, after three
  reshapes; and a contraction of the [256, n, 1024] pair tensor with W2 [512, 1024] on the last axes, after one reshape
  — and show that each is one step of the recursion: a reshape keeps the row-major position, so entry (r, κ) of the pair
  matrix is entry (2r + κ / 512, κ % 512) of the matrix before.
-/
import Idealize.ShloMosaic.Lib.ValueIdx
import Idealize.ShloMosaic.Lib.ValueLayout
import Idealize.ShloMosaic.Lib.Pipeline.Value
import Idealize.ShloMosaic.PureOps.Ideal.Laws

noncomputable section

namespace Cert.PairTree

open Idealize.ShloMosaic Idealize.ShloMosaic.ValueIdx

/-! ## Arrays read at natural-number indices -/

/-- A rank-1 array read at a natural number (zero outside the array). -/
def rd1 {a : ℕ} (A : (⟨1, ![a]⟩ : Shape).Idx → EReal) (i : ℕ) : EReal :=
  if h : i < a then A (ix1 ⟨i, h⟩) else 0
/-- A rank-2 array read at two natural numbers (zero outside the array). -/
def rd2 {a b : ℕ} (A : (⟨2, ![a, b]⟩ : Shape).Idx → EReal) (i j : ℕ) : EReal :=
  if h : i < a ∧ j < b then A (ix2 ⟨i, h.1⟩ ⟨j, h.2⟩) else 0
/-- A rank-3 array read at three natural numbers (zero outside the array). -/
def rd3 {a b c : ℕ} (A : (⟨3, ![a, b, c]⟩ : Shape).Idx → EReal) (i j k : ℕ) : EReal :=
  if h : i < a ∧ j < b ∧ k < c then A (ix3 ⟨i, h.1⟩ ⟨j, h.2.1⟩ ⟨k, h.2.2⟩) else 0

theorem rd1_ix1 {a : ℕ} (A : (⟨1, ![a]⟩ : Shape).Idx → EReal) (i : Fin a) : rd1 A i.val = A (ix1 i) := by
  unfold rd1; rw [dif_pos i.isLt]
theorem rd2_ix2 {a b : ℕ} (A : (⟨2, ![a, b]⟩ : Shape).Idx → EReal) (i : Fin a) (j : Fin b) : rd2 A i.val j.val = A (ix2 i j) := by
  unfold rd2; rw [dif_pos ⟨i.isLt, j.isLt⟩]
theorem rd3_ix3 {a b c : ℕ} (A : (⟨3, ![a, b, c]⟩ : Shape).Idx → EReal) (i : Fin a) (j : Fin b) (k : Fin c) :
    rd3 A i.val j.val k.val = A (ix3 i j k) := by
  unfold rd3; rw [dif_pos ⟨i.isLt, j.isLt, k.isLt⟩]

/-! ## The recursion -/

/-- Level `k` of the tree at row `r`, column `c`: the leaves are X's rows projected by W1; a row of the next level is
    two neighbouring rows side by side contracted with W2, plus b2. -/
def lvl (X W1 W2 : ℕ → ℕ → EReal) (b2 : ℕ → EReal) : ℕ → ℕ → ℕ → EReal
  | 0, r, c => ∑ d : Fin 300, X r d.val * W1 c d.val
  | k + 1, r, c => (∑ κ : Fin 1024, lvl X W1 W2 b2 k (2 * r + κ.val / 512) (κ.val % 512) * W2 c κ.val) + b2 c

theorem lvl_zero (X W1 W2 : ℕ → ℕ → EReal) (b2 : ℕ → EReal) (r c : ℕ) :
    lvl X W1 W2 b2 0 r c = ∑ d : Fin 300, X r d.val * W1 c d.val := rfl
theorem lvl_succ (X W1 W2 : ℕ → ℕ → EReal) (b2 : ℕ → EReal) (k r c : ℕ) :
    lvl X W1 W2 b2 (k + 1) r c
      = (∑ κ : Fin 1024, lvl X W1 W2 b2 k (2 * r + κ.val / 512) (κ.val % 512) * W2 c κ.val) + b2 c := rfl

/-! ## Reshapes composed -/

/-- Two reshapes in a row read the operand at the index with the same row-major position. -/
theorem shapeCast2_apply {α : Type} {s0 s1 s2 : Shape} (x : s0.Idx → α) (h1 : s0.ShapeCasts s1) (h2 : s1.ShapeCasts s2)
    (j : s2.Idx) (k : s0.Idx) (hk : (s0.rowMajor k).val = (s2.rowMajor j).val) :
    shapeCast s2 (shapeCast s1 x h1) h2 j = x k := by
  unfold shapeCast
  refine congrArg x ?_
  rw [Shape.reshapeEquiv_reshapeEquiv]
  exact Shape.reshapeEquiv_eq_of_rowMajor _ hk

/-- Three reshapes in a row read the operand at the index with the same row-major position. -/
theorem shapeCast3_apply {α : Type} {s0 s1 s2 s3 : Shape} (x : s0.Idx → α) (h1 : s0.ShapeCasts s1) (h2 : s1.ShapeCasts s2)
    (h3 : s2.ShapeCasts s3) (j : s3.Idx) (k : s0.Idx) (hk : (s0.rowMajor k).val = (s3.rowMajor j).val) :
    shapeCast s3 (shapeCast s2 (shapeCast s1 x h1) h2) h3 j = x k := by
  unfold shapeCast
  refine congrArg x ?_
  rw [Shape.reshapeEquiv_reshapeEquiv, Shape.reshapeEquiv_reshapeEquiv]
  exact Shape.reshapeEquiv_eq_of_rowMajor _ hk

/-! ## A plain matrix product into a zero accumulator -/

section Plain
variable {M K N : ℕ}

theorem plain_lhs_0 (j : (⟨2, ![M, N]⟩ : Shape).Idx) (k : (DotDims.plain M K N).contr.Idx) :
    ((DotDims.plain M K N).lhsIdx j k 0 : ℕ) = j 0 := rfl
theorem plain_lhs_1 (j : (⟨2, ![M, N]⟩ : Shape).Idx) (k : (DotDims.plain M K N).contr.Idx) :
    ((DotDims.plain M K N).lhsIdx j k 1 : ℕ) = k ⟨0, Nat.zero_lt_one⟩ := rfl
theorem plain_rhs_0 (j : (⟨2, ![M, N]⟩ : Shape).Idx) (k : (DotDims.plain M K N).contr.Idx) :
    ((DotDims.plain M K N).rhsIdx j k 0 : ℕ) = k ⟨0, Nat.zero_lt_one⟩ := rfl
theorem plain_rhs_1 (j : (⟨2, ![M, N]⟩ : Shape).Idx) (k : (DotDims.plain M K N).contr.Idx) :
    ((DotDims.plain M K N).rhsIdx j k 1 : ℕ) = j 1 := rfl

/-- The product of an [M, K] by a [K, N] matrix into the zero matrix, at (i, j): the sum over the K inner positions. -/
theorem plain_matmul_zero_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ k : Fin K, l (ix2 i k) * r (ix2 k j) := by
  show FloatOps.matmul (DotDims.plain M K N) none l r (constant ⟨2, ![M, N]⟩ .f32 0x00000000#32) (ix2 i j) = _
  rw [Ideal.matmul_constant_zero_apply,
    ← Equiv.sum_comp (contrEquiv1 (DotDims.plain M K N) K rfl rfl).symm]
  refine Finset.sum_congr rfl fun k _ => ?_
  have hl : (DotDims.plain M K N).lhsIdx (ix2 i j) ((contrEquiv1 (DotDims.plain M K N) K rfl rfl).symm k) = ix2 i k :=
    funext fun a => Fin.ext (by
      match a with
      | ⟨0, _⟩ => exact plain_lhs_0 _ _
      | ⟨1, _⟩ => exact (plain_lhs_1 _ _).trans (contrEquiv1_symm_val _ K rfl rfl k))
  have hr : (DotDims.plain M K N).rhsIdx (ix2 i j) ((contrEquiv1 (DotDims.plain M K N) K rfl rfl).symm k) = ix2 k j :=
    funext fun a => Fin.ext (by
      match a with
      | ⟨0, _⟩ => exact (plain_rhs_0 _ _).trans (contrEquiv1_symm_val _ K rfl rfl k)
      | ⟨1, _⟩ => exact plain_rhs_1 _ _)
  rw [hl, hr]

end Plain

/-! ## One level, as a matrix product after three reshapes -/

/-- The pair matrix's product with W2ᵀ plus the bias row, at (r, c): the [R2, 512] matrix A reshaped (through any two
    shapes between) to [R, 1024] holds at (r, κ) the entry (2r + κ / 512, κ % 512) of A. -/
theorem pair_matmul_apply {R2 R : ℕ} (hR : R2 = 2 * R) {s1 s2 : Shape}
    (A : FVec Ideal ⟨2, ![R2, 512]⟩ .f32) (W : FVec Ideal ⟨2, ![1024, 512]⟩ .bf16) (b : FVec Ideal ⟨2, ![1, 512]⟩ .f32)
    (h1 : (⟨2, ![R2, 512]⟩ : Shape).ShapeCasts s1) (h2 : s1.ShapeCasts s2) (h3 : s2.ShapeCasts ⟨2, ![R, 1024]⟩)
    (hlt : FTy.bf16.bits < FTy.f32.bits)
    (D : DotDims ⟨2, ![R, 1024]⟩ ⟨2, ![1024, 512]⟩ ⟨2, ![R, 512]⟩) (hD : D = DotDims.plain R 1024 512)
    (hb : (⟨2, ![1, 512]⟩ : Shape).Broadcasts ⟨2, ![R, 512]⟩) (r : Fin R) (c : Fin 512) :
    addf (matmul D none (truncf .bf16 (shapeCast ⟨2, ![R, 1024]⟩ (shapeCast s2 (shapeCast s1 A h1) h2) h3) hlt) W
          (constant ⟨2, ![R, 512]⟩ .f32 0x00000000#32))
        (broadcastTo ⟨2, ![R, 512]⟩ b hb) (ix2 r c)
      = (∑ κ : Fin 1024, A (ix2 ⟨2 * r.val + κ.val / 512, by have := r.isLt; have := κ.isLt; omega⟩ ⟨κ.val % 512, Nat.mod_lt _ (by decide)⟩)
            * W (ix2 κ c))
          + b (ix2 (0 : Fin 1) c) := by
  subst hD
  rw [addf_apply, plain_matmul_zero_apply, broadcastTo_1b_ab_apply]
  refine congrArg (· + b (ix2 (0 : Fin 1) c)) (Finset.sum_congr rfl fun κ _ => ?_)
  refine congrArg (· * W (ix2 κ c)) ?_
  rw [truncf_apply]
  refine shapeCast3_apply A h1 h2 h3 _ _ ?_
  rw [Shape.rowMajor_val_two, Shape.rowMajor_val_two]
  show (2 * r.val + κ.val / 512) * 512 + κ.val % 512 = r.val * 1024 + κ.val
  omega

/-- One level as the recursion's step: if A's rows are level `k` from row `base2` on, the product's rows are level
    `k + 1` from row `base` on, where `base2 = 2 * base`. -/
theorem pair_matmul_step {R2 R : ℕ} (hR : R2 = 2 * R) {s1 s2 : Shape}
    (A : FVec Ideal ⟨2, ![R2, 512]⟩ .f32) (W : FVec Ideal ⟨2, ![1024, 512]⟩ .bf16) (b : FVec Ideal ⟨2, ![1, 512]⟩ .f32)
    (h1 : (⟨2, ![R2, 512]⟩ : Shape).ShapeCasts s1) (h2 : s1.ShapeCasts s2) (h3 : s2.ShapeCasts ⟨2, ![R, 1024]⟩)
    (hlt : FTy.bf16.bits < FTy.f32.bits)
    (D : DotDims ⟨2, ![R, 1024]⟩ ⟨2, ![1024, 512]⟩ ⟨2, ![R, 512]⟩) (hD : D = DotDims.plain R 1024 512)
    (hb : (⟨2, ![1, 512]⟩ : Shape).Broadcasts ⟨2, ![R, 512]⟩)
    (X W1 W2 : ℕ → ℕ → EReal) (b2 : ℕ → EReal) (k base2 base : ℕ) (hbase : base2 = 2 * base)
    (hA : ∀ (r : Fin R2) (c : Fin 512), A (ix2 r c) = lvl X W1 W2 b2 k (base2 + r.val) c.val)
    (hW : ∀ (κ : Fin 1024) (c : Fin 512), W (ix2 κ c) = W2 c.val κ.val)
    (hb2 : ∀ c : Fin 512, b (ix2 (0 : Fin 1) c) = b2 c.val) (r : Fin R) (c : Fin 512) :
    addf (matmul D none (truncf .bf16 (shapeCast ⟨2, ![R, 1024]⟩ (shapeCast s2 (shapeCast s1 A h1) h2) h3) hlt) W
          (constant ⟨2, ![R, 512]⟩ .f32 0x00000000#32))
        (broadcastTo ⟨2, ![R, 512]⟩ b hb) (ix2 r c)
      = lvl X W1 W2 b2 (k + 1) (base + r.val) c.val := by
  rw [pair_matmul_apply hR A W b h1 h2 h3 hlt D hD hb r c, lvl_succ, hb2]
  refine congrArg (· + b2 c.val) (Finset.sum_congr rfl fun κ _ => ?_)
  rw [hA, hW]
  show lvl X W1 W2 b2 k (base2 + (2 * r.val + κ.val / 512)) (κ.val % 512) * _ = _
  rw [show base2 + (2 * r.val + κ.val / 512) = 2 * (base + r.val) + κ.val / 512 by omega]

/-- The leaves of a block of T trees as a matrix product: the block [T, 256, 300] reshaped to [T * 256, 300] times W1ᵀ
    [300, 512], at (r, c): the sum over the 300 coordinates of leaf r % 256 of tree r / 256. -/
theorem leaf_matmul_apply {T R : ℕ} (hR : R = T * 256)
    (x : FVec Ideal ⟨3, ![T, 256, 300]⟩ .bf16) (w : FVec Ideal ⟨2, ![300, 512]⟩ .bf16)
    (h0 : (⟨3, ![T, 256, 300]⟩ : Shape).ShapeCasts ⟨3, ![T, 256, 300]⟩) (h1 : (⟨3, ![T, 256, 300]⟩ : Shape).ShapeCasts ⟨2, ![R, 300]⟩)
    (hw : (⟨2, ![300, 512]⟩ : Shape).ShapeCasts ⟨2, ![300, 512]⟩)
    (D : DotDims ⟨2, ![R, 300]⟩ ⟨2, ![300, 512]⟩ ⟨2, ![R, 512]⟩) (hD : D = DotDims.plain R 300 512) (r : Fin R) (c : Fin 512) :
    matmul D none (shapeCast ⟨2, ![R, 300]⟩ (shapeCast ⟨3, ![T, 256, 300]⟩ x h0) h1) (shapeCast ⟨2, ![300, 512]⟩ w hw)
        (constant ⟨2, ![R, 512]⟩ .f32 0x00000000#32) (ix2 r c)
      = ∑ d : Fin 300, x (ix3 ⟨r.val / 256, by have := r.isLt; omega⟩ ⟨r.val % 256, Nat.mod_lt _ (by decide)⟩ d) * w (ix2 d c) := by
  subst hD
  rw [plain_matmul_zero_apply]
  refine Finset.sum_congr rfl fun d _ => ?_
  rw [shapeCast_self w hw]
  refine congrArg (· * w (ix2 d c)) ?_
  refine shapeCast2_apply x h0 h1 _ _ ?_
  rw [Shape.rowMajor_val_three, Shape.rowMajor_val_two]
  show (r.val / 256 * 256 + r.val % 256) * 300 + d.val = r.val * 300 + d.val
  omega

/-! ## One level, as a contraction of the pair tensor over the last axes -/

/-- The dimension numbers of a [B, n, K] tensor contracted with an [N, K] matrix over their last axes. -/
def lastAxisDot (B n K N : ℕ) (wf : DotDims.WF ⟨3, ![B, n, K]⟩ ⟨2, ![N, K]⟩ ⟨3, ![B, n, N]⟩ [2] [1] [0, 1] [0] [] []) :
    DotDims ⟨3, ![B, n, K]⟩ ⟨2, ![N, K]⟩ ⟨3, ![B, n, N]⟩ where
  lhsContracting := [2]
  rhsContracting := [1]
  lhsNonContracting := [0, 1]
  rhsNonContracting := [0]
  lhsBatch := []
  rhsBatch := []
  wf := wf

section LastAxis
variable {B n K N : ℕ} (wf : DotDims.WF ⟨3, ![B, n, K]⟩ ⟨2, ![N, K]⟩ ⟨3, ![B, n, N]⟩ [2] [1] [0, 1] [0] [] [])

theorem lastAxis_lhs_0 (j : (⟨3, ![B, n, N]⟩ : Shape).Idx) (k : (lastAxisDot B n K N wf).contr.Idx) :
    ((lastAxisDot B n K N wf).lhsIdx j k 0 : ℕ) = j 0 := rfl
theorem lastAxis_lhs_1 (j : (⟨3, ![B, n, N]⟩ : Shape).Idx) (k : (lastAxisDot B n K N wf).contr.Idx) :
    ((lastAxisDot B n K N wf).lhsIdx j k 1 : ℕ) = j 1 := rfl
theorem lastAxis_lhs_2 (j : (⟨3, ![B, n, N]⟩ : Shape).Idx) (k : (lastAxisDot B n K N wf).contr.Idx) :
    ((lastAxisDot B n K N wf).lhsIdx j k 2 : ℕ) = k ⟨0, Nat.zero_lt_one⟩ := rfl
theorem lastAxis_rhs_0 (j : (⟨3, ![B, n, N]⟩ : Shape).Idx) (k : (lastAxisDot B n K N wf).contr.Idx) :
    ((lastAxisDot B n K N wf).rhsIdx j k 0 : ℕ) = j 2 := rfl
theorem lastAxis_rhs_1 (j : (⟨3, ![B, n, N]⟩ : Shape).Idx) (k : (lastAxisDot B n K N wf).contr.Idx) :
    ((lastAxisDot B n K N wf).rhsIdx j k 1 : ℕ) = k ⟨0, Nat.zero_lt_one⟩ := rfl

/-- The contraction at (t, j, c): the sum over the K last-axis positions. -/
theorem lastAxisDot_apply {φ₁ φ₂ : FTy} (l : FVec Ideal ⟨3, ![B, n, K]⟩ φ₁) (r : FVec Ideal ⟨2, ![N, K]⟩ φ₂)
    (t : Fin B) (j : Fin n) (c : Fin N) :
    Host.dotGeneral (lastAxisDot B n K N wf) none l r (ix3 t j c) = ∑ k : Fin K, l (ix3 t j k) * r (ix2 c k) := by
  show FloatOps.dotGeneral (lastAxisDot B n K N wf) none .single l r (ix3 t j c) = _
  rw [Ideal.dotGeneral_apply,
    ← Equiv.sum_comp (contrEquiv1 (lastAxisDot B n K N wf) K rfl rfl).symm]
  refine Finset.sum_congr rfl fun k _ => ?_
  have hl : (lastAxisDot B n K N wf).lhsIdx (ix3 t j c) ((contrEquiv1 (lastAxisDot B n K N wf) K rfl rfl).symm k) = ix3 t j k :=
    funext fun a => Fin.ext (by
      match a with
      | ⟨0, _⟩ => exact lastAxis_lhs_0 wf _ _
      | ⟨1, _⟩ => exact lastAxis_lhs_1 wf _ _
      | ⟨2, _⟩ => exact (lastAxis_lhs_2 wf _ _).trans (contrEquiv1_symm_val _ K rfl rfl k))
  have hr : (lastAxisDot B n K N wf).rhsIdx (ix3 t j c) ((contrEquiv1 (lastAxisDot B n K N wf) K rfl rfl).symm k) = ix2 c k :=
    funext fun a => Fin.ext (by
      match a with
      | ⟨0, _⟩ => exact lastAxis_rhs_0 wf _ _
      | ⟨1, _⟩ => exact (lastAxis_rhs_1 wf _ _).trans (contrEquiv1_symm_val _ K rfl rfl k))
  rw [hl, hr]

end LastAxis

/-- A vector of 512 entries broadcast first to [1, 1, 512] and then to [B, n, 512] reads, at (t, j, c), its entry c. -/
theorem bias_bcast_apply {B n : ℕ} (b2 : (⟨1, ![512]⟩ : Shape).Idx → EReal)
    (hb1 : (⟨1, ![512]⟩ : Shape).BroadcastsInDim ⟨3, ![1, 1, 512]⟩ ![2])
    (hb2 : (⟨3, ![1, 1, 512]⟩ : Shape).BroadcastsInDim ⟨3, ![B, n, 512]⟩ ![0, 1, 2]) (t : Fin B) (j : Fin n) (c : Fin 512) :
    broadcastInDim ⟨3, ![B, n, 512]⟩ ![0, 1, 2] hb2 (broadcastInDim ⟨3, ![1, 1, 512]⟩ ![2] hb1 b2) (ix3 t j c) = b2 (ix1 c) := by
  rw [broadcastInDim_apply ![0, 1, 2] hb2 _ (ix3 t j c) (ix3 (0 : Fin 1) (0 : Fin 1) c) (fun a => by
      match a with
      | ⟨0, _⟩ => rfl
      | ⟨1, _⟩ => rfl
      | ⟨2, _⟩ => rfl),
    broadcastInDim_apply ![2] hb1 b2 (ix3 (0 : Fin 1) (0 : Fin 1) c) (ix1 c) (fun a => by
      match a with
      | ⟨0, _⟩ => rfl)]

/-- One level of the reference at (t, j, c): the [256, n2, 512] tensor A reshaped to [256, n, 1024] holds at (t, j, κ)
    the entry (t, 2j + κ / 512, κ % 512) of A. -/
theorem pair_dot_apply {n2 n : ℕ} (hn : n2 = 2 * n)
    (A : FVec Ideal ⟨3, ![256, n2, 512]⟩ .f32) (W : FVec Ideal ⟨2, ![512, 1024]⟩ .f32) (b : FVec Ideal ⟨1, ![512]⟩ .f32)
    (h1 : (⟨3, ![256, n2, 512]⟩ : Shape).ShapeCasts ⟨3, ![256, n, 1024]⟩)
    (wf : DotDims.WF ⟨3, ![256, n, 1024]⟩ ⟨2, ![512, 1024]⟩ ⟨3, ![256, n, 512]⟩ [2] [1] [0, 1] [0] [] [])
    (D : DotDims ⟨3, ![256, n, 1024]⟩ ⟨2, ![512, 1024]⟩ ⟨3, ![256, n, 512]⟩) (hD : D = lastAxisDot 256 n 1024 512 wf)
    (hb1 : (⟨1, ![512]⟩ : Shape).BroadcastsInDim ⟨3, ![1, 1, 512]⟩ ![2])
    (hb2 : (⟨3, ![1, 1, 512]⟩ : Shape).BroadcastsInDim ⟨3, ![256, n, 512]⟩ ![0, 1, 2]) (t : Fin 256) (j : Fin n) (c : Fin 512) :
    addf (Host.dotGeneral D none (shapeCast ⟨3, ![256, n, 1024]⟩ A h1) W)
        (broadcastInDim ⟨3, ![256, n, 512]⟩ ![0, 1, 2] hb2 (broadcastInDim ⟨3, ![1, 1, 512]⟩ ![2] hb1 b)) (ix3 t j c)
      = (∑ κ : Fin 1024, A (ix3 t ⟨2 * j.val + κ.val / 512, by have := j.isLt; have := κ.isLt; omega⟩ ⟨κ.val % 512, Nat.mod_lt _ (by decide)⟩)
            * W (ix2 c κ))
          + b (ix1 c) := by
  subst hD
  rw [addf_apply, lastAxisDot_apply, bias_bcast_apply]
  refine congrArg (· + b (ix1 c)) (Finset.sum_congr rfl fun κ _ => ?_)
  refine congrArg (· * W (ix2 c κ)) ?_
  refine shapeCast_apply A h1 _ _ ?_
  rw [Shape.rowMajor_val_three, Shape.rowMajor_val_three]
  show (t.val * n2 + (2 * j.val + κ.val / 512)) * 512 + κ.val % 512 = (t.val * n + j.val) * 1024 + κ.val
  subst hn
  have e : t.val * (2 * n) = 2 * (t.val * n) := by ring
  rw [e]
  omega

/-- One level of the reference as the recursion's step: if A at (t, j, ·) is level `k` at row t * n2 + j, the result at
    (t, j, ·) is level `k + 1` at row t * n + j. -/
theorem pair_dot_step {n2 n : ℕ} (hn : n2 = 2 * n)
    (A : FVec Ideal ⟨3, ![256, n2, 512]⟩ .f32) (W : FVec Ideal ⟨2, ![512, 1024]⟩ .f32) (b : FVec Ideal ⟨1, ![512]⟩ .f32)
    (h1 : (⟨3, ![256, n2, 512]⟩ : Shape).ShapeCasts ⟨3, ![256, n, 1024]⟩)
    (wf : DotDims.WF ⟨3, ![256, n, 1024]⟩ ⟨2, ![512, 1024]⟩ ⟨3, ![256, n, 512]⟩ [2] [1] [0, 1] [0] [] [])
    (D : DotDims ⟨3, ![256, n, 1024]⟩ ⟨2, ![512, 1024]⟩ ⟨3, ![256, n, 512]⟩) (hD : D = lastAxisDot 256 n 1024 512 wf)
    (hb1 : (⟨1, ![512]⟩ : Shape).BroadcastsInDim ⟨3, ![1, 1, 512]⟩ ![2])
    (hb2 : (⟨3, ![1, 1, 512]⟩ : Shape).BroadcastsInDim ⟨3, ![256, n, 512]⟩ ![0, 1, 2])
    (X W1 W2 : ℕ → ℕ → EReal) (b2 : ℕ → EReal) (k : ℕ)
    (hA : ∀ (t : Fin 256) (j : Fin n2) (c : Fin 512), A (ix3 t j c) = lvl X W1 W2 b2 k (t.val * n2 + j.val) c.val)
    (hW : ∀ (c : Fin 512) (κ : Fin 1024), W (ix2 c κ) = W2 c.val κ.val)
    (hb : ∀ c : Fin 512, b (ix1 c) = b2 c.val) (t : Fin 256) (j : Fin n) (c : Fin 512) :
    addf (Host.dotGeneral D none (shapeCast ⟨3, ![256, n, 1024]⟩ A h1) W)
        (broadcastInDim ⟨3, ![256, n, 512]⟩ ![0, 1, 2] hb2 (broadcastInDim ⟨3, ![1, 1, 512]⟩ ![2] hb1 b)) (ix3 t j c)
      = lvl X W1 W2 b2 (k + 1) (t.val * n + j.val) c.val := by
  rw [pair_dot_apply hn A W b h1 wf D hD hb1 hb2 t j c, lvl_succ, hb]
  refine congrArg (· + b2 c.val) (Finset.sum_congr rfl fun κ _ => ?_)
  rw [hA, hW]
  show lvl X W1 W2 b2 k (t.val * n2 + (2 * j.val + κ.val / 512)) (κ.val % 512) * _ = _
  subst hn
  rw [show t.val * (2 * n) + (2 * j.val + κ.val / 512) = 2 * (t.val * n + j.val) + κ.val / 512 by ring]

/-- The reference's leaves at (t, l, c): the gathered rows contracted with W1 over the 300 coordinates. -/
theorem leaf_dot_apply
    (wf : DotDims.WF ⟨3, ![256, 256, 300]⟩ ⟨2, ![512, 300]⟩ ⟨3, ![256, 256, 512]⟩ [2] [1] [0, 1] [0] [] [])
    (D : DotDims ⟨3, ![256, 256, 300]⟩ ⟨2, ![512, 300]⟩ ⟨3, ![256, 256, 512]⟩) (hD : D = lastAxisDot 256 256 300 512 wf)
    (x : FVec Ideal ⟨3, ![256, 256, 300]⟩ .f32) (w : FVec Ideal ⟨2, ![512, 300]⟩ .f32) (t l : Fin 256) (c : Fin 512) :
    Host.dotGeneral D none x w (ix3 t l c) = ∑ d : Fin 300, x (ix3 t l d) * w (ix2 c d) := by
  subst hD
  exact lastAxisDot_apply wf x w t l c

/-! ## The root of every tree, as one array -/

/-- The rows of a [T, 256, D] array of leaves, one row per leaf: row r is leaf r % 256 of tree r / 256. -/
def rows {T D : ℕ} (X : (⟨3, ![T, 256, D]⟩ : Shape).Idx → EReal) : ℕ → ℕ → EReal :=
  fun r d => rd3 X (r / 256) (r % 256) d

theorem rows_apply {T D : ℕ} (X : (⟨3, ![T, 256, D]⟩ : Shape).Idx → EReal) (t : Fin T) (l : Fin 256) (d : Fin D) :
    rows X (t.val * 256 + l.val) d.val = X (ix3 t l d) := by
  unfold rows
  have h1 : (t.val * 256 + l.val) / 256 = t.val := by have := l.isLt; omega
  have h2 : (t.val * 256 + l.val) % 256 = l.val := by have := l.isLt; omega
  rw [h1, h2, rd3_ix3]

/-- The root's hidden vector of each of 256 trees of 256 leaves: level 8 of the recursion over the leaves' rows. -/
def root (X : (⟨3, ![256, 256, 300]⟩ : Shape).Idx → EReal) (W1 : (⟨2, ![512, 300]⟩ : Shape).Idx → EReal)
    (W2 : (⟨2, ![512, 1024]⟩ : Shape).Idx → EReal) (b2 : (⟨1, ![512]⟩ : Shape).Idx → EReal) :
    (⟨2, ![256, 512]⟩ : Shape).Idx → EReal :=
  fun i => lvl (rows X) (rd2 W1) (rd2 W2) (rd1 b2) 8 (i 0).val (i 1).val

end Cert.PairTree

end
-- ==== Proof.KernelPayload.lean ====
/-
  The kernel body's result at an index.

  At one grid point the body holds a block of 16 trees: their 4096 leaf rows (16 × 256, each of 300 coordinates), W1ᵀ,
  W2ᵀ and the bias as a one-row matrix. It projects the 4096 rows by W1ᵀ and then, eight times, reshapes the current
  [2R, 512] matrix to [R, 1024] — two neighbouring rows side by side — multiplies by W2ᵀ and adds the bias row. Row r of
  the block's level-k matrix is row (first tree × 256 / 2^k + r) of the whole tree recursion's level k, because the block's
  trees are contiguous and every level halves row numbers. After eight levels the block has one row per tree.
-/
import proofs.«174901_j25589415149692_1_alg».proof.Proof.Gen.KernelIdeal.Skeleton
import proofs.«174901_j25589415149692_1_alg».proof.Proof.LibPairTree

noncomputable section

namespace Cert.KernelIdeal.TreeValue

open Idealize.ShloMosaic Idealize.ShloMosaic.ValueIdx Cert.KernelIdeal Cert.KernelIdeal.Gen Cert.PairTree

/-- The body's stored value at (p, c): if the block's leaf rows are rows (base + p) * 256 + l of X, and the three
    parameter blocks are W1ᵀ, W2ᵀ and b2 as a row, it is level 8 of the recursion at row base + p. -/
theorem payload_apply (x0 : Vec Ideal S16x256x300 .bf16) (x1 : Vec Ideal S300x512 .bf16) (x2 : Vec Ideal S1024x512 .bf16)
    (x3 : Vec Ideal S1x512 .f32) (X W1 W2 : ℕ → ℕ → EReal) (b2 : ℕ → EReal) (base : ℕ)
    (hx0 : ∀ (p : Fin 16) (l : Fin 256) (d : Fin 300), x0 (ix3 p l d) = X ((base + p.val) * 256 + l.val) d.val)
    (hx1 : ∀ (d : Fin 300) (c : Fin 512), x1 (ix2 d c) = W1 c.val d.val)
    (hx2 : ∀ (κ : Fin 1024) (c : Fin 512), x2 (ix2 κ c) = W2 c.val κ.val)
    (hx3 : ∀ c : Fin 512, x3 (ix2 (0 : Fin 1) c) = b2 c.val) (p : Fin 16) (c : Fin 512) :
    k0_pay1 (F := Ideal) (k0_pay2 x2) (k0_pay3 x3) (k0_pay4 x0 x1 x2 x3) (k0_pay5 x3) (ix2 p c)
      = lvl X W1 W2 b2 8 (base + p.val) c.val := by
  have hW : ∀ (κ : Fin 1024) (c : Fin 512), (k0_pay2 (F := Ideal) x2) (ix2 κ c) = W2 c.val κ.val := fun κ c => by
    unfold k0_pay2
    exact (congrFun (shapeCast_self x2 _) (ix2 κ c)).trans (hx2 κ c)
  have hb : ∀ c : Fin 512, (k0_pay3 (F := Ideal) x3) (ix2 (0 : Fin 1) c) = b2 c.val := fun c => by
    unfold k0_pay3
    exact (congrFun (shapeCast_self x3 _) (ix2 (0 : Fin 1) c)).trans (hx3 c)
  -- the leaves: row r of the block is leaf r % 256 of the block's tree r / 256
  have h0 : ∀ (r : Fin 4096) (c : Fin 512),
      matmul dot_S4096x300_S300x512_S4096x512_1_0_0_1_n_n none
          (shapeCast S4096x300 (shapeCast S16x256x300 x0 shapeCasts_S16x256x300_S16x256x300) shapeCasts_S16x256x300_S4096x300)
          (shapeCast S300x512 x1 shapeCasts_S300x512_S300x512) (constant (F := Ideal) S4096x512 .f32 0x00000000#32) (ix2 r c)
        = lvl X W1 W2 b2 0 (base * 256 + r.val) c.val := fun r c => by
    rw [leaf_matmul_apply (T := 16) (R := 4096) rfl x0 x1 shapeCasts_S16x256x300_S16x256x300 shapeCasts_S16x256x300_S4096x300
      shapeCasts_S300x512_S300x512 dot_S4096x300_S300x512_S4096x512_1_0_0_1_n_n rfl r c, lvl_zero]
    refine Finset.sum_congr rfl fun d _ => ?_
    rw [hx0, hx1]
    show X ((base + r.val / 256) * 256 + r.val % 256) d.val * _ = _
    rw [show (base + r.val / 256) * 256 + r.val % 256 = base * 256 + r.val by omega]
  -- eight levels: each halves the rows, and the block's first row with them
  have h1 := pair_matmul_step (R2 := 4096) (R := 2048) rfl _ (k0_pay2 x2) (k0_pay3 x3) shapeCasts_S4096x512_S16x256x512 shapeCasts_S16x256x512_S16x128x1024 shapeCasts_S16x128x1024_S2048x1024
    bitsLt_bf16_f32 dot_S2048x1024_S1024x512_S2048x512_1_0_0_1_n_n rfl broadcasts_S1x512_S2048x512 X W1 W2 b2 0 (base * 256) (base * 128) (by omega) h0 hW hb
  have h2 := pair_matmul_step (R2 := 2048) (R := 1024) rfl _ (k0_pay2 x2) (k0_pay3 x3) shapeCasts_S2048x512_S16x128x512 shapeCasts_S16x128x512_S16x64x1024 shapeCasts_S16x64x1024_S1024x1024
    bitsLt_bf16_f32 dot_S1024x1024_S1024x512_S1024x512_1_0_0_1_n_n rfl broadcasts_S1x512_S1024x512 X W1 W2 b2 1 (base * 128) (base * 64) (by omega) h1 hW hb
  have h3 := pair_matmul_step (R2 := 1024) (R := 512) rfl _ (k0_pay2 x2) (k0_pay3 x3) shapeCasts_S1024x512_S16x64x512 shapeCasts_S16x64x512_S16x32x1024 shapeCasts_S16x32x1024_S512x1024
    bitsLt_bf16_f32 dot_S512x1024_S1024x512_S512x512_1_0_0_1_n_n rfl broadcasts_S1x512_S512x512 X W1 W2 b2 2 (base * 64) (base * 32) (by omega) h2 hW hb
  have h4 := pair_matmul_step (R2 := 512) (R := 256) rfl _ (k0_pay2 x2) (k0_pay3 x3) shapeCasts_S512x512_S16x32x512 shapeCasts_S16x32x512_S16x16x1024 shapeCasts_S16x16x1024_S256x1024
    bitsLt_bf16_f32 dot_S256x1024_S1024x512_S256x512_1_0_0_1_n_n rfl broadcasts_S1x512_S256x512 X W1 W2 b2 3 (base * 32) (base * 16) (by omega) h3 hW hb
  have h5 := pair_matmul_step (R2 := 256) (R := 128) rfl _ (k0_pay2 x2) (k0_pay3 x3) shapeCasts_S256x512_S16x16x512 shapeCasts_S16x16x512_S16x8x1024 shapeCasts_S16x8x1024_S128x1024
    bitsLt_bf16_f32 dot_S128x1024_S1024x512_S128x512_1_0_0_1_n_n rfl broadcasts_S1x512_S128x512 X W1 W2 b2 4 (base * 16) (base * 8) (by omega) h4 hW hb
  have h6 := pair_matmul_step (R2 := 128) (R := 64) rfl _ (k0_pay2 x2) (k0_pay3 x3) shapeCasts_S128x512_S16x8x512 shapeCasts_S16x8x512_S16x4x1024 shapeCasts_S16x4x1024_S64x1024
    bitsLt_bf16_f32 dot_S64x1024_S1024x512_S64x512_1_0_0_1_n_n rfl broadcasts_S1x512_S64x512 X W1 W2 b2 5 (base * 8) (base * 4) (by omega) h5 hW hb
  have h7 := pair_matmul_step (R2 := 64) (R := 32) rfl _ (k0_pay2 x2) (k0_pay3 x3) shapeCasts_S64x512_S16x4x512 shapeCasts_S16x4x512_S16x2x1024 shapeCasts_S16x2x1024_S32x1024
    bitsLt_bf16_f32 dot_S32x1024_S1024x512_S32x512_1_0_0_1_n_n rfl broadcasts_S1x512_S32x512 X W1 W2 b2 6 (base * 4) (base * 2) (by omega) h6 hW hb
  have h8 := pair_matmul_step (R2 := 32) (R := 16) rfl _ (k0_pay2 x2) (k0_pay3 x3) shapeCasts_S32x512_S16x2x512 shapeCasts_S16x2x512_S16x1x1024 shapeCasts_S16x1x1024_S16x1024
    bitsLt_bf16_f32 dot_S16x1024_S1024x512_S16x512_1_0_0_1_n_n rfl broadcasts_S1x512_S16x512 X W1 W2 b2 7 (base * 2) (base * 1) (by omega) h7 hW hb
  -- the stored value is the last level's matrix, reshaped to [16, 1, 512] and back
  unfold k0_pay1 k0_pay4 k0_pay5
  refine (congrFun (shapeCast_shapeCast _ shapeCasts_S16x512_S16x1x512 shapeCasts_S16x1x512_S16x512) (ix2 p c)).trans ?_
  refine (h8 p c).trans ?_
  rw [Nat.mul_one]

end Cert.KernelIdeal.TreeValue

end
-- ==== Proof.KernelValue.lean ====
/-
  The kernel's result array as one function of the arguments.

  Before the region the host gathers one embedding row per leaf (the same take as the reference's), and transposes W1
  and W2; the changes of float format are the identity on extended reals. Grid point t stages trees 16t … 16t + 15 (all
  their leaves), the whole of W1ᵀ, W2ᵀ and the bias row, and writes rows 16t … 16t + 15 of the result. By the body's value
  at an index those rows are the tree recursion's level 8 at rows 16t + p: the sixteen points' blocks tile the [256, 512]
  result, so the array ends holding the root of every tree.
-/
import proofs.«174901_j25589415149692_1_alg».proof.Proof.Gen.KernelIdeal.Value
import proofs.«174901_j25589415149692_1_alg».proof.Proof.KernelPayload
import Idealize.ShloMosaic.Lib.StableHlo.Run

noncomputable section

namespace Cert.KernelIdeal.TreeValue

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Value Cert.PairTree

/-- jnp.take(emb, ids, axis=0) as the kernel's module spells it on the host: a negative index is wrapped once by the
    table's length, the row is gathered, and a row whose wrapped index is still outside [0, 49999] is the fill value. -/
def take {F : FTy → Type} [FloatOps F] (emb : FVec F S50000x300 .f32) (ids : IVec S256x256 32) : FVec F S256x256x300 .f32 :=
  let wrapped : IVec S256x256 32 :=
    select (cmpi .slt ids (broadcastInDim S256x256 ![] bcast_S_S256x256 (constantI S_ 32 0#32)))
      (addi ids (broadcastInDim S256x256 ![] bcast_S_S256x256 (constantI S_ 32 50000#32))) ids
  let idx : IVec S256x256x1 32 := broadcastInDim S256x256x1 ![0, 1] bcast_S256x256_S256x256x1_0_1 wrapped
  let inside : IVec S256x256 1 :=
    Host.reduce IntOp.andi
      (andi (cmpi .sge idx (broadcastInDim S256x256x1 ![] bcast_S_S256x256x1 (constantI S_ 32 0#32)))
        (cmpi .sle idx (broadcastInDim S256x256x1 ![0, 1, 2] bcast_S1x1x1_S256x256x1_0_1_2
          (broadcastInDim S1x1x1 ![2] bcast_S1_S1x1x1_2 (constantI S1 32 49999#32)))))
      (constantI S_ 1 1#1) reducesTo_S256x256x1_S256x256_d2 h_S_
  select (broadcastInDim S256x256x300 ![0, 1] bcast_S256x256_S256x256x300_0_1 inside)
    (Host.gather gather_S50000x300_S256x256x1_S256x256x300_2_0_n_n_0_2_1300 emb idx)
    (broadcastInDim S256x256x300 ![] bcast_S_S256x256x300 (constant S_ .f32 0x7FC00000#32))

variable (m : (ℓ : Loc nD τ sig) → Buf (Elt Ideal) ℓ) (ρ : Dev nD → PrngReg)

/-! ## The arrays the region finds -/

attribute [local irreducible] Host.reduce Host.gather in
/-- The gathered rows, in the narrower format (the same reals). -/
theorem V_leaves (c : Dev nD) :
    (V m c main_v1 : S256x256x300.Idx → EReal)
      = truncf (F := Ideal) .bf16 (take (m ((c : Thread nD τ).loc main_arg1)) (m ((c : Thread nD τ).loc main_arg0))) bitsLt_bf16_f32 := by
  dsimp only [Gen.V]
  simp only [Gen.hostOps0, Gen.hostOps0_1, List.flatten_cons, List.flatten_nil, List.append_nil, List.cons_append, List.nil_append]
  after_results_simp
  unfold take
  rfl

/-- W1 transposed. -/
theorem V_w1t (c : Dev nD) :
    (V m c main_v3 : S300x512.Idx → EReal)
      = truncf (F := Ideal) .bf16 (transpose S300x512 [1, 0] (m ((c : Thread nD τ).loc main_arg2)) transposes_S512x300_S300x512_1_0) bitsLt_bf16_f32 := by
  dsimp only [Gen.V]
  simp only [Gen.hostOps0, Gen.hostOps0_1, List.flatten_cons, List.flatten_nil, List.append_nil, List.cons_append, List.nil_append]
  after_results

/-- W2 transposed. -/
theorem V_w2t (c : Dev nD) :
    (V m c main_v5 : S1024x512.Idx → EReal)
      = truncf (F := Ideal) .bf16 (transpose S1024x512 [1, 0] (m ((c : Thread nD τ).loc main_arg3)) transposes_S512x1024_S1024x512_1_0) bitsLt_bf16_f32 := by
  dsimp only [Gen.V]
  simp only [Gen.hostOps0, Gen.hostOps0_1, List.flatten_cons, List.flatten_nil, List.append_nil, List.cons_append, List.nil_append]
  after_results

/-- The bias as a one-row matrix. -/
theorem V_bias (c : Dev nD) :
    (V m c main_v6 : S1x512.Idx → EReal) = shapeCast S1x512 (m ((c : Thread nD τ).loc main_arg4)) shapeCasts_S512_S1x512 := by
  dsimp only [Gen.V]
  simp only [Gen.hostOps0, Gen.hostOps0_1, List.flatten_cons, List.flatten_nil, List.append_nil, List.cons_append, List.nil_append]
  after_results
  rfl

/-! ## The windows' blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the leaves' window and the result's move one block per point along the trees;
    the three parameter windows stay at block (0, 0). -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The four input blocks at a point, each at its literal type. -/
abbrev leavesBlk (c : Dev nD) (t : Fin cfg0.N) : Vec Ideal S16x256x300 .bf16 := iblk m c 0 t
abbrev w1tBlk (c : Dev nD) (t : Fin cfg0.N) : Vec Ideal S300x512 .bf16 := iblk m c 1 t
abbrev w2tBlk (c : Dev nD) (t : Fin cfg0.N) : Vec Ideal S1024x512 .bf16 := iblk m c 2 t
abbrev biasBlk (c : Dev nD) (t : Fin cfg0.N) : Vec Ideal S1x512 .f32 := iblk m c 3 t

/-- Point t's block of leaves is trees 16t … 16t + 15 of the gathered rows. -/
theorem leavesBlk_apply (c : Dev nD) (t : Fin cfg0.N) (p : Fin 16) (l : Fin 256) (d : Fin 300) :
    leavesBlk m c t (ix3 p l d)
      = rows (take (F := Ideal) (m ((c : Thread nD τ).loc main_arg1)) (m ((c : Thread nD τ).loc main_arg0))) ((t.val * 16 + p.val) * 256 + l.val) d.val := by
  obtain ⟨e0, e1, e2, -⟩ := idx_facts t
  have ht : t.val < 16 := N_0 ▸ t.isLt
  have hrow : t.val * 16 + p.val < 256 := by have := p.isLt; omega
  rw [show (t.val * 16 + p.val) * 256 + l.val = (⟨t.val * 16 + p.val, hrow⟩ : Fin 256).val * 256 + l.val from rfl, rows_apply]
  show (V m c main_v1 : S256x256x300.Idx → EReal) (((cfg0.win 0).blk t).view.emb (ix3 p l d)) = _
  rw [V_leaves, truncf_apply]
  refine congrArg _ (funext fun a => Fin.ext ?_)
  match a with
  | ⟨0, _⟩ => show win0_0.index t (0 : Fin 3) * 16 + 1 * p.val = t.val * 16 + p.val; omega
  | ⟨1, _⟩ => show win0_0.index t (1 : Fin 3) * 256 + 1 * l.val = l.val; omega
  | ⟨2, _⟩ => show win0_0.index t (2 : Fin 3) * 300 + 1 * d.val = d.val; omega

/-- The W1ᵀ block is the whole of W1 transposed. -/
theorem w1tBlk_apply (c : Dev nD) (t : Fin cfg0.N) (d : Fin 300) (q : Fin 512) :
    w1tBlk m c t (ix2 d q) = rd2 (m ((c : Thread nD τ).loc main_arg2) : S512x300.Idx → EReal) q.val d.val := by
  obtain ⟨-, -, -, e0, e1, -⟩ := idx_facts t
  rw [rd2_ix2]
  show (V m c main_v3 : S300x512.Idx → EReal) (((cfg0.win 1).blk t).view.emb (ix2 d q)) = _
  rw [V_w1t, truncf_apply]
  refine Eq.trans (congrArg _ (funext fun a => Fin.ext ?_)) (transpose_ix2_apply _ transposes_S512x300_S300x512_1_0 d q)
  match a with
  | ⟨0, _⟩ => show win0_1.index t (0 : Fin 2) * 300 + 1 * d.val = d.val; omega
  | ⟨1, _⟩ => show win0_1.index t (1 : Fin 2) * 512 + 1 * q.val = q.val; omega

/-- The W2ᵀ block is the whole of W2 transposed. -/
theorem w2tBlk_apply (c : Dev nD) (t : Fin cfg0.N) (κ : Fin 1024) (q : Fin 512) :
    w2tBlk m c t (ix2 κ q) = rd2 (m ((c : Thread nD τ).loc main_arg3) : S512x1024.Idx → EReal) q.val κ.val := by
  obtain ⟨-, -, -, -, -, e0, e1, -⟩ := idx_facts t
  rw [rd2_ix2]
  show (V m c main_v5 : S1024x512.Idx → EReal) (((cfg0.win 2).blk t).view.emb (ix2 κ q)) = _
  rw [V_w2t, truncf_apply]
  refine Eq.trans (congrArg _ (funext fun a => Fin.ext ?_)) (transpose_ix2_apply _ transposes_S512x1024_S1024x512_1_0 κ q)
  match a with
  | ⟨0, _⟩ => show win0_2.index t (0 : Fin 2) * 1024 + 1 * κ.val = κ.val; omega
  | ⟨1, _⟩ => show win0_2.index t (1 : Fin 2) * 512 + 1 * q.val = q.val; omega

/-- The bias block is b2 as one row. -/
theorem biasBlk_apply (c : Dev nD) (t : Fin cfg0.N) (q : Fin 512) :
    biasBlk m c t (ix2 (0 : Fin 1) q) = rd1 (m ((c : Thread nD τ).loc main_arg4) : S512.Idx → EReal) q.val := by
  obtain ⟨-, -, -, -, -, -, -, e0, e1, -⟩ := idx_facts t
  rw [rd1_ix1]
  show (V m c main_v6 : S1x512.Idx → EReal) (((cfg0.win 3).blk t).view.emb (ix2 (0 : Fin 1) q)) = _
  rw [V_bias]
  refine Eq.trans (congrArg _ (funext fun a => Fin.ext ?_)) (shapeCast_a_1a_apply _ shapeCasts_S512_S1x512 (0 : Fin 1) q)
  match a with
  | ⟨0, _⟩ => show win0_3.index t (0 : Fin 2) * 1 + 1 * 0 = 0; omega
  | ⟨1, _⟩ => show win0_3.index t (1 : Fin 2) * 512 + 1 * q.val = q.val; omega

/-! ## From blocks to the array -/

/-- The result array: the root of every tree, over the gathered rows and the three parameter arrays as launched. -/
abbrev result (c : Dev nD) : S256x512.Idx → EReal :=
  root (take (F := Ideal) (m ((c : Thread nD τ).loc main_arg1)) (m ((c : Thread nD τ).loc main_arg0)))
    (m ((c : Thread nD τ).loc main_arg2)) (m ((c : Thread nD τ).loc main_arg3)) (m ((c : Thread nD τ).loc main_arg4))

/-- What point t writes back is block t of the result: rows 16t … 16t + 15. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz2]
  simp only [View.ld_unit_zero (S := S16x256x300) hz3, View.ld_unit_zero (S := S300x512) hz2,
    View.ld_unit_zero (S := S1024x512) hz2, View.ld_unit_zero (S := S1x512) hz2]
  obtain ⟨-, -, -, -, -, -, -, -, -, e0, e1⟩ := idx_facts t
  funext j
  obtain ⟨p, q, rfl⟩ : ∃ (p : Fin 16) (q : Fin 512), j = ix2 p q := ⟨j 0, j 1, eq_ix2 j⟩
  show k0_pay1 (F := Ideal) (k0_pay2 (w2tBlk m c t)) (k0_pay3 (biasBlk m c t))
      (k0_pay4 (leavesBlk m c t) (w1tBlk m c t) (w2tBlk m c t) (biasBlk m c t)) (k0_pay5 (biasBlk m c t)) (ix2 p q)
    = result m c (((cfg0.win 4).blk t).view.emb (ix2 p q))
  refine (payload_apply (leavesBlk m c t) (w1tBlk m c t) (w2tBlk m c t) (biasBlk m c t)
    (rows (take (F := Ideal) (m ((c : Thread nD τ).loc main_arg1)) (m ((c : Thread nD τ).loc main_arg0))))
    (rd2 (m ((c : Thread nD τ).loc main_arg2) : S512x300.Idx → EReal))
    (rd2 (m ((c : Thread nD τ).loc main_arg3) : S512x1024.Idx → EReal))
    (rd1 (m ((c : Thread nD τ).loc main_arg4) : S512.Idx → EReal)) (t.val * 16)
    (leavesBlk_apply m c t) (w1tBlk_apply m c t) (w2tBlk_apply m c t) (biasBlk_apply m c t) p q).trans ?_
  show lvl _ _ _ _ 8 (t.val * 16 + p.val) q.val
    = lvl _ _ _ _ 8 (win0_4.index t (0 : Fin 2) * 16 + 1 * p.val) (win0_4.index t (1 : Fin 2) * 512 + 1 * q.val)
  rw [e0, e1, Nat.one_mul, Nat.one_mul, Nat.zero_mul, Nat.zero_add]

/-- An index of the result is in point t's block iff each coordinate is in the block's range on its axis. -/
theorem mem_blk (t : Fin cfg0.N) (i : S256x512.Idx) :
    i ∈ ((cfg0.win 4).blk t).view.set ↔ ∀ a : Fin 2, win0_4.index t a * S16x512.size a ≤ (i a).val ∧ (i a).val < win0_4.index t a * S16x512.size a + S16x512.size a := by
  show i ∈ ((View.whole main_v7).slice (win0_4.rect t)).set ↔ _
  rw [View.set_slice_whole, Rect.mem_set_unit]
  exact Iff.rfl

/-- Every row of the result is in the block of the point that holds its tree: row r is in block r / 16. -/
theorem covered (i : S256x512.Idx) : ∃ t : Fin cfg0.N, (cfg0.win 4).flush t = true ∧ i ∈ ((cfg0.win 4).blk t).view.set := by
  have hi0 : (i 0).val < 256 := (i 0).isLt
  have hi1 : (i 1).val < 512 := (i 1).isLt
  have hN : cfg0.N = 16 := N_0
  refine ⟨⟨(i 0).val / 16, by rw [hN]; omega⟩, flush0_4 _, ?_⟩
  obtain ⟨-, -, -, -, -, -, -, -, -, e0, e1⟩ := idx_facts ⟨(i 0).val / 16, by rw [hN]; omega⟩
  rw [mem_blk]
  intro a
  match a with
  | ⟨0, _⟩ =>
    show win0_4.index _ (0 : Fin 2) * 16 ≤ (i 0).val ∧ (i 0).val < win0_4.index _ (0 : Fin 2) * 16 + 16
    rw [e0]; show (i 0).val / 16 * 16 ≤ (i 0).val ∧ (i 0).val < (i 0).val / 16 * 16 + 16; omega
  | ⟨1, _⟩ =>
    show win0_4.index _ (1 : Fin 2) * 512 ≤ (i 1).val ∧ (i 1).val < win0_4.index _ (1 : Fin 2) * 512 + 512
    rw [e1]; omega

/-- The result array after the run. -/
theorem final (c : Dev nD) : (dats m 0 c).arrAt 4 cfg0.N = result m c :=
  (dats m 0 c).arrAt_eq_of_cover 4 (result m c) (fun t _ => flushed_eq m c t) covered

/-- The run, read: the result array holds the root of every tree, the arguments are unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.TreeValue

end
-- ==== Proof.RefTerm.lean ====
/-
  The reference's result as one term of its argument arrays.

  The reference gathers one embedding row per leaf, projects every leaf by W1 (one contraction over the 300 embedding
  coordinates), and then halves the number of nodes eight times: at each level two neighbouring nodes' hidden vectors are
  laid side by side (a reshape of [256, 2n, 512] to [256, n, 1024]), contracted with W2 over the 1024 coordinates, and
  the bias b2 is added. The last level has one node per tree; dropping that unit axis gives the [256, 512] result.
  Each stage is named here so that a later module can open the term one level at a time.
-/
import proofs.«174901_j25589415149692_1_alg».proof.Proof.Gen.ReferenceIdeal

noncomputable section

namespace Cert.ReferenceIdeal.RefTerm

open Idealize.ShloMosaic Cert.ReferenceIdeal Cert.ReferenceIdeal.Gen

variable {F : FTy → Type} [FloatOps F]

/-- jnp.take(emb, ids, axis=0) as the reference's module spells it: a negative index is wrapped once by the table's length,
    the row is gathered, and a row whose wrapped index is still outside [0, 49999] is replaced by the fill value. -/
def take (emb : FVec F S50000x300 .f32) (ids : IVec S256x256 32) : FVec F S256x256x300 .f32 :=
  let wrapped : IVec S256x256 32 :=
    select (cmpi .slt ids (broadcastInDim S256x256 ![] bcast_S_S256x256 (constantI S_ 32 0#32)))
      (addi ids (broadcastInDim S256x256 ![] bcast_S_S256x256 (constantI S_ 32 50000#32))) ids
  let idx : IVec S256x256x1 32 := broadcastInDim S256x256x1 ![0, 1] bcast_S256x256_S256x256x1_0_1 wrapped
  let inside : IVec S256x256 1 :=
    Host.reduce IntOp.andi
      (andi (cmpi .sge idx (broadcastInDim S256x256x1 ![] bcast_S_S256x256x1 (constantI S_ 32 0#32)))
        (cmpi .sle idx (broadcastInDim S256x256x1 ![0, 1, 2] bcast_S1x1x1_S256x256x1_0_1_2
          (broadcastInDim S1x1x1 ![2] bcast_S1_S1x1x1_2 (constantI S1 32 49999#32)))))
      (constantI S_ 1 1#1) reducesTo_S256x256x1_S256x256_d2 h_S_
  select (broadcastInDim S256x256x300 ![0, 1] bcast_S256x256_S256x256x300_0_1 inside)
    (Host.gather gather_S50000x300_S256x256x1_S256x256x300_2_0_n_n_0_2_1300 emb idx)
    (broadcastInDim S256x256x300 ![] bcast_S_S256x256x300 (constant S_ .f32 0x7FC00000#32))

/-- The leaves' hidden vectors: every gathered row contracted with W1 over the 300 embedding coordinates. -/
def leaf (x : FVec F S256x256x300 .f32) (W1 : FVec F S512x300 .f32) : FVec F S256x256x512 .f32 :=
  Host.dotGeneral dot_S256x256x300_S512x300_S256x256x512_2_1_01_0_n_n none x W1

/-- One level of the tree, from 256 nodes per tree to 128: neighbouring pairs side by side, contracted with W2, plus b2. -/
def level128 (h : FVec F S256x256x512 .f32) (W2 : FVec F S512x1024 .f32) (b2 : FVec F S512 .f32) : FVec F S256x128x512 .f32 :=
  addf (Host.dotGeneral dot_S256x128x1024_S512x1024_S256x128x512_2_1_01_0_n_n none (shapeCast S256x128x1024 h shapeCasts_S256x256x512_S256x128x1024) W2)
    (broadcastInDim S256x128x512 ![0, 1, 2] bcast_S1x1x512_S256x128x512_0_1_2 (broadcastInDim S1x1x512 ![2] bcast_S512_S1x1x512_2 b2))

/-- One level of the tree, from 128 nodes per tree to 64: neighbouring pairs side by side, contracted with W2, plus b2. -/
def level64 (h : FVec F S256x128x512 .f32) (W2 : FVec F S512x1024 .f32) (b2 : FVec F S512 .f32) : FVec F S256x64x512 .f32 :=
  addf (Host.dotGeneral dot_S256x64x1024_S512x1024_S256x64x512_2_1_01_0_n_n none (shapeCast S256x64x1024 h shapeCasts_S256x128x512_S256x64x1024) W2)
    (broadcastInDim S256x64x512 ![0, 1, 2] bcast_S1x1x512_S256x64x512_0_1_2 (broadcastInDim S1x1x512 ![2] bcast_S512_S1x1x512_2 b2))

/-- One level of the tree, from 64 nodes per tree to 32: neighbouring pairs side by side, contracted with W2, plus b2. -/
def level32 (h : FVec F S256x64x512 .f32) (W2 : FVec F S512x1024 .f32) (b2 : FVec F S512 .f32) : FVec F S256x32x512 .f32 :=
  addf (Host.dotGeneral dot_S256x32x1024_S512x1024_S256x32x512_2_1_01_0_n_n none (shapeCast S256x32x1024 h shapeCasts_S256x64x512_S256x32x1024) W2)
    (broadcastInDim S256x32x512 ![0, 1, 2] bcast_S1x1x512_S256x32x512_0_1_2 (broadcastInDim S1x1x512 ![2] bcast_S512_S1x1x512_2 b2))

/-- One level of the tree, from 32 nodes per tree to 16: neighbouring pairs side by side, contracted with W2, plus b2. -/
def level16 (h : FVec F S256x32x512 .f32) (W2 : FVec F S512x1024 .f32) (b2 : FVec F S512 .f32) : FVec F S256x16x512 .f32 :=
  addf (Host.dotGeneral dot_S256x16x1024_S512x1024_S256x16x512_2_1_01_0_n_n none (shapeCast S256x16x1024 h shapeCasts_S256x32x512_S256x16x1024) W2)
    (broadcastInDim S256x16x512 ![0, 1, 2] bcast_S1x1x512_S256x16x512_0_1_2 (broadcastInDim S1x1x512 ![2] bcast_S512_S1x1x512_2 b2))

/-- One level of the tree, from 16 nodes per tree to 8: neighbouring pairs side by side, contracted with W2, plus b2. -/
def level8 (h : FVec F S256x16x512 .f32) (W2 : FVec F S512x1024 .f32) (b2 : FVec F S512 .f32) : FVec F S256x8x512 .f32 :=
  addf (Host.dotGeneral dot_S256x8x1024_S512x1024_S256x8x512_2_1_01_0_n_n none (shapeCast S256x8x1024 h shapeCasts_S256x16x512_S256x8x1024) W2)
    (broadcastInDim S256x8x512 ![0, 1, 2] bcast_S1x1x512_S256x8x512_0_1_2 (broadcastInDim S1x1x512 ![2] bcast_S512_S1x1x512_2 b2))

/-- One level of the tree, from 8 nodes per tree to 4: neighbouring pairs side by side, contracted with W2, plus b2. -/
def level4 (h : FVec F S256x8x512 .f32) (W2 : FVec F S512x1024 .f32) (b2 : FVec F S512 .f32) : FVec F S256x4x512 .f32 :=
  addf (Host.dotGeneral dot_S256x4x1024_S512x1024_S256x4x512_2_1_01_0_n_n none (shapeCast S256x4x1024 h shapeCasts_S256x8x512_S256x4x1024) W2)
    (broadcastInDim S256x4x512 ![0, 1, 2] bcast_S1x1x512_S256x4x512_0_1_2 (broadcastInDim S1x1x512 ![2] bcast_S512_S1x1x512_2 b2))

/-- One level of the tree, from 4 nodes per tree to 2: neighbouring pairs side by side, contracted with W2, plus b2. -/
def level2 (h : FVec F S256x4x512 .f32) (W2 : FVec F S512x1024 .f32) (b2 : FVec F S512 .f32) : FVec F S256x2x512 .f32 :=
  addf (Host.dotGeneral dot_S256x2x1024_S512x1024_S256x2x512_2_1_01_0_n_n none (shapeCast S256x2x1024 h shapeCasts_S256x4x512_S256x2x1024) W2)
    (broadcastInDim S256x2x512 ![0, 1, 2] bcast_S1x1x512_S256x2x512_0_1_2 (broadcastInDim S1x1x512 ![2] bcast_S512_S1x1x512_2 b2))

/-- One level of the tree, from 2 nodes per tree to 1: neighbouring pairs side by side, contracted with W2, plus b2. -/
def level1 (h : FVec F S256x2x512 .f32) (W2 : FVec F S512x1024 .f32) (b2 : FVec F S512 .f32) : FVec F S256x1x512 .f32 :=
  addf (Host.dotGeneral dot_S256x1x1024_S512x1024_S256x1x512_2_1_01_0_n_n none (shapeCast S256x1x1024 h shapeCasts_S256x2x512_S256x1x1024) W2)
    (broadcastInDim S256x1x512 ![0, 1, 2] bcast_S1x1x512_S256x1x512_0_1_2 (broadcastInDim S1x1x512 ![2] bcast_S512_S1x1x512_2 b2))

/-- The reference's result: the root's hidden vector of every tree. -/
def out (ids : IVec S256x256 32) (emb : FVec F S50000x300 .f32) (W1 : FVec F S512x300 .f32) (W2 : FVec F S512x1024 .f32)
    (b2 : FVec F S512 .f32) : FVec F S256x512 .f32 :=
  shapeCast S256x512
    (level1 (level2 (level4 (level8 (level16 (level32 (level64 (level128 (leaf (take emb ids) W1) W2 b2) W2 b2) W2 b2) W2 b2) W2 b2) W2 b2) W2 b2) W2 b2)
    shapeCasts_S256x1x512_S256x512

end Cert.ReferenceIdeal.RefTerm

end
-- ==== Proof.RefRun.lean ====
/-
  The reference program's run, read back.

  @main of the reference is a straight line once its two module-local functions are opened at their calls: the 23
  operations of @_take (one of them @_where's single select) over the buffers of the call's record, then @main's own
  43 — the leaves' contraction with W1 and, eight times, a reshape that lays neighbouring nodes side by side, a
  contraction with W2, the bias broadcast in two steps and the sum, and last the reshape that drops the unit axis.
  Each operation writes one buffer of its own and reads buffers written earlier or the five arguments, so the
  contents of any buffer after the line is the composition of the operations' functions along the chain that
  reaches it. Read at the result buffer that composition is the term RefTerm.out of the arguments' launch
  contents; read at an argument it is the argument, which no operation writes.
-/
import proofs.«174901_j25589415149692_1_alg».proof.Proof.Gen.ReferenceIdeal
import proofs.«174901_j25589415149692_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 66 operations in order, the two calls opened. The first 23 are @_take's over the record of its call
    (its first argument the embedding table, main_arg1; its second the indices, main_arg0): a negative index is
    moved up by the table's length (the comparison with zero, the sum, and @_where's select of the two), the index
    gets a unit axis, is tested against 0 and 49999 and the two tests are joined and reduced over that axis, the
    rows are gathered, and the rows whose test failed are replaced by the fill value. The other 43 are @main's
    own: the leaves' contraction with W1, then for 128, 64, …, 1 nodes per tree the reshape to pairs, the
    contraction with W2, the bias broadcast to the level's shape in two steps and the sum, and the last reshape
    to [256, 512]. -/
abbrev ops : List (HloOp τ sig (Elt F)) :=
  [ TRef.nullary main_call0.c (constantI S_ 32 0#32),
    TRef.unary main_call0.c main_call0.v0 (broadcastInDim S256x256 ![] bcast_S_S256x256),
    TRef.binary (.of main_arg0 : TRef sig ⟨S256x256, .i32⟩) main_call0.v0 main_call0.v1 (cmpi .slt),
    TRef.nullary main_call0.c_0 (constantI S_ 32 50000#32),
    TRef.unary main_call0.c_0 main_call0.v2 (broadcastInDim S256x256 ![] bcast_S_S256x256),
    TRef.binary (.of main_arg0 : TRef sig ⟨S256x256, .i32⟩) main_call0.v2 main_call0.v3 addi,
    TRef.ternary main_call0.v1 main_call0.v3 (.of main_arg0 : TRef sig ⟨S256x256, .i32⟩) main_call0.call0.v0 select,
    TRef.unary main_call0.call0.v0 main_call0.v5 (broadcastInDim S256x256x1 ![0, 1] bcast_S256x256_S256x256x1_0_1),
    TRef.nullary main_call0.c_1 (constantI S1 32 49999#32),
    TRef.nullary main_call0.c_2 (constantI S_ 32 0#32),
    TRef.unary main_call0.c_2 main_call0.v6 (broadcastInDim S256x256x1 ![] bcast_S_S256x256x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S256x256x1 ![0, 1, 2] bcast_S1x1x1_S256x256x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S256x256x1_S256x256_d2 h_S_),
    TRef.binary (.of main_arg1 : TRef sig ⟨S50000x300, .f32⟩) main_call0.v5 main_call0.v13 (fun x i => Host.gather gather_S50000x300_S256x256x1_S256x256x300_2_0_n_n_0_2_1300 x i),
    TRef.unary main_call0.v12 main_call0.v14 (broadcastInDim S256x256x300 ![0, 1] bcast_S256x256_S256x256x300_0_1),
    TRef.nullary main_call0.cst (constant S_ .f32 0x7FC00000#32),
    TRef.unary main_call0.cst main_call0.v15 (broadcastInDim S256x256x300 ![] bcast_S_S256x256x300),
    TRef.ternary main_call0.v14 main_call0.v13 main_call0.v15 main_call0.v16 select,
    binary main_v0 main_arg2 main_v1 (fun l r => Host.dotGeneral dot_S256x256x300_S512x300_S256x256x512_2_1_01_0_n_n none l r),
    reshape main_v1 main_v2 rfl shapeCasts_S256x256x512_S256x128x1024,
    binary main_v2 main_arg3 main_v3 (fun l r => Host.dotGeneral dot_S256x128x1024_S512x1024_S256x128x512_2_1_01_0_n_n none l r),
    unary main_arg4 main_v4 (broadcastInDim S1x1x512 ![2] bcast_S512_S1x1x512_2),
    unary main_v4 main_v5 (broadcastInDim S256x128x512 ![0, 1, 2] bcast_S1x1x512_S256x128x512_0_1_2),
    binary main_v3 main_v5 main_v6 addf,
    reshape main_v6 main_v7 rfl shapeCasts_S256x128x512_S256x64x1024,
    binary main_v7 main_arg3 main_v8 (fun l r => Host.dotGeneral dot_S256x64x1024_S512x1024_S256x64x512_2_1_01_0_n_n none l r),
    unary main_arg4 main_v9 (broadcastInDim S1x1x512 ![2] bcast_S512_S1x1x512_2),
    unary main_v9 main_v10 (broadcastInDim S256x64x512 ![0, 1, 2] bcast_S1x1x512_S256x64x512_0_1_2),
    binary main_v8 main_v10 main_v11 addf,
    reshape main_v11 main_v12 rfl shapeCasts_S256x64x512_S256x32x1024,
    binary main_v12 main_arg3 main_v13 (fun l r => Host.dotGeneral dot_S256x32x1024_S512x1024_S256x32x512_2_1_01_0_n_n none l r),
    unary main_arg4 main_v14 (broadcastInDim S1x1x512 ![2] bcast_S512_S1x1x512_2),
    unary main_v14 main_v15 (broadcastInDim S256x32x512 ![0, 1, 2] bcast_S1x1x512_S256x32x512_0_1_2),
    binary main_v13 main_v15 main_v16 addf,
    reshape main_v16 main_v17 rfl shapeCasts_S256x32x512_S256x16x1024,
    binary main_v17 main_arg3 main_v18 (fun l r => Host.dotGeneral dot_S256x16x1024_S512x1024_S256x16x512_2_1_01_0_n_n none l r),
    unary main_arg4 main_v19 (broadcastInDim S1x1x512 ![2] bcast_S512_S1x1x512_2),
    unary main_v19 main_v20 (broadcastInDim S256x16x512 ![0, 1, 2] bcast_S1x1x512_S256x16x512_0_1_2),
    binary main_v18 main_v20 main_v21 addf,
    reshape main_v21 main_v22 rfl shapeCasts_S256x16x512_S256x8x1024,
    binary main_v22 main_arg3 main_v23 (fun l r => Host.dotGeneral dot_S256x8x1024_S512x1024_S256x8x512_2_1_01_0_n_n none l r),
    unary main_arg4 main_v24 (broadcastInDim S1x1x512 ![2] bcast_S512_S1x1x512_2),
    unary main_v24 main_v25 (broadcastInDim S256x8x512 ![0, 1, 2] bcast_S1x1x512_S256x8x512_0_1_2),
    binary main_v23 main_v25 main_v26 addf,
    reshape main_v26 main_v27 rfl shapeCasts_S256x8x512_S256x4x1024,
    binary main_v27 main_arg3 main_v28 (fun l r => Host.dotGeneral dot_S256x4x1024_S512x1024_S256x4x512_2_1_01_0_n_n none l r),
    unary main_arg4 main_v29 (broadcastInDim S1x1x512 ![2] bcast_S512_S1x1x512_2),
    unary main_v29 main_v30 (broadcastInDim S256x4x512 ![0, 1, 2] bcast_S1x1x512_S256x4x512_0_1_2),
    binary main_v28 main_v30 main_v31 addf,
    reshape main_v31 main_v32 rfl shapeCasts_S256x4x512_S256x2x1024,
    binary main_v32 main_arg3 main_v33 (fun l r => Host.dotGeneral dot_S256x2x1024_S512x1024_S256x2x512_2_1_01_0_n_n none l r),
    unary main_arg4 main_v34 (broadcastInDim S1x1x512 ![2] bcast_S512_S1x1x512_2),
    unary main_v34 main_v35 (broadcastInDim S256x2x512 ![0, 1, 2] bcast_S1x1x512_S256x2x512_0_1_2),
    binary main_v33 main_v35 main_v36 addf,
    reshape main_v36 main_v37 rfl shapeCasts_S256x2x512_S256x1x1024,
    binary main_v37 main_arg3 main_v38 (fun l r => Host.dotGeneral dot_S256x1x1024_S512x1024_S256x1x512_2_1_01_0_n_n none l r),
    unary main_arg4 main_v39 (broadcastInDim S1x1x512 ![2] bcast_S512_S1x1x512_2),
    unary main_v39 main_v40 (broadcastInDim S256x1x512 ![0, 1, 2] bcast_S1x1x512_S256x1x512_0_1_2),
    binary main_v38 main_v40 main_v41 addf,
    reshape main_v41 main_v42 rfl shapeCasts_S256x1x512_S256x512 ]

-- a chain of 66 steps, each sequenced before all the rest
set_option maxRecDepth 2048 in
/-- @main is that line: the two functions' definitions opened at their calls and the records read at their fields,
    both sides are one chain of 66 operation steps once the sequencing is re-associated. -/
theorem main_eq (c : Dev nD) : main (F := F) c = seq ops := by
  simp only [main, fn_take.body, fn_where.body, seq, bind_assoc, pure_bind]
  rfl

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation touches the TensorCore's own references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub ..,
    reshape_bufs_sub .., binary_bufs_sub .., unary_bufs_sub .., unary_bufs_sub .., binary_bufs_sub ..,
    reshape_bufs_sub .., binary_bufs_sub .., unary_bufs_sub .., unary_bufs_sub .., binary_bufs_sub ..,
    reshape_bufs_sub .., binary_bufs_sub .., unary_bufs_sub .., unary_bufs_sub .., binary_bufs_sub ..,
    reshape_bufs_sub .., binary_bufs_sub .., unary_bufs_sub .., unary_bufs_sub .., binary_bufs_sub ..,
    reshape_bufs_sub .., binary_bufs_sub .., unary_bufs_sub .., unary_bufs_sub .., binary_bufs_sub ..,
    reshape_bufs_sub .., binary_bufs_sub .., unary_bufs_sub .., unary_bufs_sub .., binary_bufs_sub ..,
    reshape_bufs_sub .., binary_bufs_sub .., unary_bufs_sub .., unary_bufs_sub .., binary_bufs_sub ..,
    reshape_bufs_sub .., binary_bufs_sub .., unary_bufs_sub .., unary_bufs_sub .., binary_bufs_sub ..,
    reshape_bufs_sub ..⟩

-- both sides of the equation below apply the gather and the reduction to the same operands: it holds whatever
-- those two functions are, and is proved with them as unknowns
attribute [local irreducible] Host.reduce Host.gather in
set_option maxHeartbeats 1600000 in
set_option maxRecDepth 8192 in
/-- After the line, from any contents V, the result buffer holds RefTerm.out of V's contents at the five
    arguments. Going back from main_v42 each buffer is written by exactly one operation, so its contents is that
    operation's function of the contents of the buffers it reads: the last reshape of the level-1 sum, that sum's
    contraction and bias, and so on down the eight levels to the leaves' contraction and @_take's select, whose
    operands are the gather, the reduced range test and the fill value, all three functions of the wrapped index.
    The index buffer is read three times, so its term occurs three times; RefTerm.take shares it under a name,
    which is the same term. A typed reference moves contents between the value's type and the buffer's along an
    equation of types that is reflexivity at these literal references, and a reshape's result is the plain
    change of shape applied index by index: both sides are the same term. -/
theorem out_eq (V : Valuation τ sig (Elt F)) :
    after ops V (main_v42 : DevRef τ sig)
      = RefTerm.out (V (main_arg0 : DevRef τ sig)) (V (main_arg1 : DevRef τ sig)) (V (main_arg2 : DevRef τ sig))
          (V (main_arg3 : DevRef τ sig)) (V (main_arg4 : DevRef τ sig)) := by
  unfold RefTerm.out RefTerm.level1 RefTerm.level2 RefTerm.level4 RefTerm.level8 RefTerm.level16 RefTerm.level32
    RefTerm.level64 RefTerm.level128 RefTerm.leaf RefTerm.take
  after_results_simp
  rfl

/-- No operation of the line writes an argument's buffer (each writes the buffer of the value it defines, and
    the 66 of them are distinct from the five arguments'), so after the line each argument holds what it held. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

/-- On the one device, for any float values, from any memory with zero counters: every weakly fair execution of
    the reference's @main terminates, and in every final state the result buffer holds RefTerm.out of the five
    arguments' launch contents (indices, embedding table, W1, W2, b2) and each argument holds its launch
    contents. The run of a straight line leaves every buffer at the line's fold over the launch contents; the
    fold at the result is RefTerm.out (out_eq) and at an argument the argument (arg0_eq … arg4_eq). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = Cert.ReferenceIdeal.RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v42).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.RefRun

end
-- ==== Proof.RefValue.lean ====
/-
  The reference's result read at an index: it is the root of the pair-tree recursion.

  The reference's term is a chain of stages: the leaves (every gathered row contracted with W1), then eight levels that
  each halve the number of nodes per tree, then a reshape that drops the unit axis of the last level. A stage with n
  nodes per tree is a [256, n, 512] array; its entry (t, j, c) is coordinate c of node j of tree t. Numbering the nodes
  of one level through all trees, node j of tree t is row t * n + j, and the two children of that row one level below
  are rows 2 * (t * n + j) and 2 * (t * n + j) + 1 = t * 2n + 2j (+ 1): exactly the rows the recursion pairs. So by
  induction along the chain, stage k at (t, j, c) is level k of the recursion at row t * n + j and column c. At the last
  level n = 1, the row is the tree's number t, and the final reshape keeps the row-major position (t * 1 + 0) * 512 + c
  = t * 512 + c, so the result at (t, c) is level 8 at row t, column c: the root.

  The gathered array is kept general throughout: the gather is never opened.
-/
import proofs.«174901_j25589415149692_1_alg».proof.Proof.RefTerm
import proofs.«174901_j25589415149692_1_alg».proof.Proof.LibPairTree

noncomputable section

namespace Cert.ReferenceIdeal.RefValue

open Idealize.ShloMosaic Idealize.ShloMosaic.ValueIdx Cert.ReferenceIdeal Cert.ReferenceIdeal.Gen Cert.PairTree

/-- The leaves: entry (t, l, c) of the gathered rows contracted with W1 is level 0 of the recursion at row t * 256 + l,
    the row of leaf l of tree t. -/
theorem leaf_eq (x : FVec Ideal S256x256x300 .f32) (W1 : FVec Ideal S512x300 .f32) (w2 : ℕ → ℕ → EReal) (bb : ℕ → EReal)
    (t l : Fin 256) (c : Fin 512) :
    RefTerm.leaf (F := Ideal) x W1 (ix3 t l c) = lvl (rows x) (rd2 W1) w2 bb 0 (t.val * 256 + l.val) c.val := by
  unfold RefTerm.leaf
  rw [leaf_dot_apply dot_S256x256x300_S512x300_S256x256x512_2_1_01_0_n_n_wf
      dot_S256x256x300_S512x300_S256x256x512_2_1_01_0_n_n rfl x W1 t l c, lvl_zero]
  refine Finset.sum_congr rfl fun d _ => ?_
  rw [rows_apply, rd2_ix2]

/-- From 256 nodes per tree to 128: if the input at (t, l, c) is level k at row t * 256 + l, the output at (t, j, c) is
    level k + 1 at row t * 128 + j, whose two children are rows t * 256 + 2j and t * 256 + 2j + 1. -/
theorem level128_eq (W2 : FVec Ideal S512x1024 .f32) (b2 : FVec Ideal S512 .f32) (X w1 : ℕ → ℕ → EReal) (k : ℕ)
    (A : FVec Ideal S256x256x512 .f32)
    (hA : ∀ (t : Fin 256) (l : Fin 256) (c : Fin 512),
      A (ix3 t l c) = lvl X w1 (rd2 W2) (rd1 b2) k (t.val * 256 + l.val) c.val)
    (t : Fin 256) (j : Fin 128) (c : Fin 512) :
    RefTerm.level128 (F := Ideal) A W2 b2 (ix3 t j c) = lvl X w1 (rd2 W2) (rd1 b2) (k + 1) (t.val * 128 + j.val) c.val := by
  unfold RefTerm.level128
  exact pair_dot_step (n2 := 256) (n := 128) rfl A W2 b2 shapeCasts_S256x256x512_S256x128x1024
    dot_S256x128x1024_S512x1024_S256x128x512_2_1_01_0_n_n_wf dot_S256x128x1024_S512x1024_S256x128x512_2_1_01_0_n_n rfl
    bcast_S512_S1x1x512_2 bcast_S1x1x512_S256x128x512_0_1_2 X w1 (rd2 W2) (rd1 b2) k hA
    (fun c κ => (rd2_ix2 W2 c κ).symm) (fun c => (rd1_ix1 b2 c).symm) t j c

/-- From 128 nodes per tree to 64: if the input at (t, l, c) is level k at row t * 128 + l, the output at (t, j, c) is
    level k + 1 at row t * 64 + j, whose two children are rows t * 128 + 2j and t * 128 + 2j + 1. -/
theorem level64_eq (W2 : FVec Ideal S512x1024 .f32) (b2 : FVec Ideal S512 .f32) (X w1 : ℕ → ℕ → EReal) (k : ℕ)
    (A : FVec Ideal S256x128x512 .f32)
    (hA : ∀ (t : Fin 256) (l : Fin 128) (c : Fin 512),
      A (ix3 t l c) = lvl X w1 (rd2 W2) (rd1 b2) k (t.val * 128 + l.val) c.val)
    (t : Fin 256) (j : Fin 64) (c : Fin 512) :
    RefTerm.level64 (F := Ideal) A W2 b2 (ix3 t j c) = lvl X w1 (rd2 W2) (rd1 b2) (k + 1) (t.val * 64 + j.val) c.val := by
  unfold RefTerm.level64
  exact pair_dot_step (n2 := 128) (n := 64) rfl A W2 b2 shapeCasts_S256x128x512_S256x64x1024
    dot_S256x64x1024_S512x1024_S256x64x512_2_1_01_0_n_n_wf dot_S256x64x1024_S512x1024_S256x64x512_2_1_01_0_n_n rfl
    bcast_S512_S1x1x512_2 bcast_S1x1x512_S256x64x512_0_1_2 X w1 (rd2 W2) (rd1 b2) k hA
    (fun c κ => (rd2_ix2 W2 c κ).symm) (fun c => (rd1_ix1 b2 c).symm) t j c

/-- From 64 nodes per tree to 32: if the input at (t, l, c) is level k at row t * 64 + l, the output at (t, j, c) is
    level k + 1 at row t * 32 + j, whose two children are rows t * 64 + 2j and t * 64 + 2j + 1. -/
theorem level32_eq (W2 : FVec Ideal S512x1024 .f32) (b2 : FVec Ideal S512 .f32) (X w1 : ℕ → ℕ → EReal) (k : ℕ)
    (A : FVec Ideal S256x64x512 .f32)
    (hA : ∀ (t : Fin 256) (l : Fin 64) (c : Fin 512),
      A (ix3 t l c) = lvl X w1 (rd2 W2) (rd1 b2) k (t.val * 64 + l.val) c.val)
    (t : Fin 256) (j : Fin 32) (c : Fin 512) :
    RefTerm.level32 (F := Ideal) A W2 b2 (ix3 t j c) = lvl X w1 (rd2 W2) (rd1 b2) (k + 1) (t.val * 32 + j.val) c.val := by
  unfold RefTerm.level32
  exact pair_dot_step (n2 := 64) (n := 32) rfl A W2 b2 shapeCasts_S256x64x512_S256x32x1024
    dot_S256x32x1024_S512x1024_S256x32x512_2_1_01_0_n_n_wf dot_S256x32x1024_S512x1024_S256x32x512_2_1_01_0_n_n rfl
    bcast_S512_S1x1x512_2 bcast_S1x1x512_S256x32x512_0_1_2 X w1 (rd2 W2) (rd1 b2) k hA
    (fun c κ => (rd2_ix2 W2 c κ).symm) (fun c => (rd1_ix1 b2 c).symm) t j c

/-- From 32 nodes per tree to 16: if the input at (t, l, c) is level k at row t * 32 + l, the output at (t, j, c) is
    level k + 1 at row t * 16 + j, whose two children are rows t * 32 + 2j and t * 32 + 2j + 1. -/
theorem level16_eq (W2 : FVec Ideal S512x1024 .f32) (b2 : FVec Ideal S512 .f32) (X w1 : ℕ → ℕ → EReal) (k : ℕ)
    (A : FVec Ideal S256x32x512 .f32)
    (hA : ∀ (t : Fin 256) (l : Fin 32) (c : Fin 512),
      A (ix3 t l c) = lvl X w1 (rd2 W2) (rd1 b2) k (t.val * 32 + l.val) c.val)
    (t : Fin 256) (j : Fin 16) (c : Fin 512) :
    RefTerm.level16 (F := Ideal) A W2 b2 (ix3 t j c) = lvl X w1 (rd2 W2) (rd1 b2) (k + 1) (t.val * 16 + j.val) c.val := by
  unfold RefTerm.level16
  exact pair_dot_step (n2 := 32) (n := 16) rfl A W2 b2 shapeCasts_S256x32x512_S256x16x1024
    dot_S256x16x1024_S512x1024_S256x16x512_2_1_01_0_n_n_wf dot_S256x16x1024_S512x1024_S256x16x512_2_1_01_0_n_n rfl
    bcast_S512_S1x1x512_2 bcast_S1x1x512_S256x16x512_0_1_2 X w1 (rd2 W2) (rd1 b2) k hA
    (fun c κ => (rd2_ix2 W2 c κ).symm) (fun c => (rd1_ix1 b2 c).symm) t j c

/-- From 16 nodes per tree to 8: if the input at (t, l, c) is level k at row t * 16 + l, the output at (t, j, c) is
    level k + 1 at row t * 8 + j, whose two children are rows t * 16 + 2j and t * 16 + 2j + 1. -/
theorem level8_eq (W2 : FVec Ideal S512x1024 .f32) (b2 : FVec Ideal S512 .f32) (X w1 : ℕ → ℕ → EReal) (k : ℕ)
    (A : FVec Ideal S256x16x512 .f32)
    (hA : ∀ (t : Fin 256) (l : Fin 16) (c : Fin 512),
      A (ix3 t l c) = lvl X w1 (rd2 W2) (rd1 b2) k (t.val * 16 + l.val) c.val)
    (t : Fin 256) (j : Fin 8) (c : Fin 512) :
    RefTerm.level8 (F := Ideal) A W2 b2 (ix3 t j c) = lvl X w1 (rd2 W2) (rd1 b2) (k + 1) (t.val * 8 + j.val) c.val := by
  unfold RefTerm.level8
  exact pair_dot_step (n2 := 16) (n := 8) rfl A W2 b2 shapeCasts_S256x16x512_S256x8x1024
    dot_S256x8x1024_S512x1024_S256x8x512_2_1_01_0_n_n_wf dot_S256x8x1024_S512x1024_S256x8x512_2_1_01_0_n_n rfl
    bcast_S512_S1x1x512_2 bcast_S1x1x512_S256x8x512_0_1_2 X w1 (rd2 W2) (rd1 b2) k hA
    (fun c κ => (rd2_ix2 W2 c κ).symm) (fun c => (rd1_ix1 b2 c).symm) t j c

/-- From 8 nodes per tree to 4: if the input at (t, l, c) is level k at row t * 8 + l, the output at (t, j, c) is
    level k + 1 at row t * 4 + j, whose two children are rows t * 8 + 2j and t * 8 + 2j + 1. -/
theorem level4_eq (W2 : FVec Ideal S512x1024 .f32) (b2 : FVec Ideal S512 .f32) (X w1 : ℕ → ℕ → EReal) (k : ℕ)
    (A : FVec Ideal S256x8x512 .f32)
    (hA : ∀ (t : Fin 256) (l : Fin 8) (c : Fin 512),
      A (ix3 t l c) = lvl X w1 (rd2 W2) (rd1 b2) k (t.val * 8 + l.val) c.val)
    (t : Fin 256) (j : Fin 4) (c : Fin 512) :
    RefTerm.level4 (F := Ideal) A W2 b2 (ix3 t j c) = lvl X w1 (rd2 W2) (rd1 b2) (k + 1) (t.val * 4 + j.val) c.val := by
  unfold RefTerm.level4
  exact pair_dot_step (n2 := 8) (n := 4) rfl A W2 b2 shapeCasts_S256x8x512_S256x4x1024
    dot_S256x4x1024_S512x1024_S256x4x512_2_1_01_0_n_n_wf dot_S256x4x1024_S512x1024_S256x4x512_2_1_01_0_n_n rfl
    bcast_S512_S1x1x512_2 bcast_S1x1x512_S256x4x512_0_1_2 X w1 (rd2 W2) (rd1 b2) k hA
    (fun c κ => (rd2_ix2 W2 c κ).symm) (fun c => (rd1_ix1 b2 c).symm) t j c

/-- From 4 nodes per tree to 2: if the input at (t, l, c) is level k at row t * 4 + l, the output at (t, j, c) is
    level k + 1 at row t * 2 + j, whose two children are rows t * 4 + 2j and t * 4 + 2j + 1. -/
theorem level2_eq (W2 : FVec Ideal S512x1024 .f32) (b2 : FVec Ideal S512 .f32) (X w1 : ℕ → ℕ → EReal) (k : ℕ)
    (A : FVec Ideal S256x4x512 .f32)
    (hA : ∀ (t : Fin 256) (l : Fin 4) (c : Fin 512),
      A (ix3 t l c) = lvl X w1 (rd2 W2) (rd1 b2) k (t.val * 4 + l.val) c.val)
    (t : Fin 256) (j : Fin 2) (c : Fin 512) :
    RefTerm.level2 (F := Ideal) A W2 b2 (ix3 t j c) = lvl X w1 (rd2 W2) (rd1 b2) (k + 1) (t.val * 2 + j.val) c.val := by
  unfold RefTerm.level2
  exact pair_dot_step (n2 := 4) (n := 2) rfl A W2 b2 shapeCasts_S256x4x512_S256x2x1024
    dot_S256x2x1024_S512x1024_S256x2x512_2_1_01_0_n_n_wf dot_S256x2x1024_S512x1024_S256x2x512_2_1_01_0_n_n rfl
    bcast_S512_S1x1x512_2 bcast_S1x1x512_S256x2x512_0_1_2 X w1 (rd2 W2) (rd1 b2) k hA
    (fun c κ => (rd2_ix2 W2 c κ).symm) (fun c => (rd1_ix1 b2 c).symm) t j c

/-- From 2 nodes per tree to 1: if the input at (t, l, c) is level k at row t * 2 + l, the output at (t, j, c) is
    level k + 1 at row t * 1 + j, whose two children are rows t * 2 + 2j and t * 2 + 2j + 1. -/
theorem level1_eq (W2 : FVec Ideal S512x1024 .f32) (b2 : FVec Ideal S512 .f32) (X w1 : ℕ → ℕ → EReal) (k : ℕ)
    (A : FVec Ideal S256x2x512 .f32)
    (hA : ∀ (t : Fin 256) (l : Fin 2) (c : Fin 512),
      A (ix3 t l c) = lvl X w1 (rd2 W2) (rd1 b2) k (t.val * 2 + l.val) c.val)
    (t : Fin 256) (j : Fin 1) (c : Fin 512) :
    RefTerm.level1 (F := Ideal) A W2 b2 (ix3 t j c) = lvl X w1 (rd2 W2) (rd1 b2) (k + 1) (t.val * 1 + j.val) c.val := by
  unfold RefTerm.level1
  exact pair_dot_step (n2 := 2) (n := 1) rfl A W2 b2 shapeCasts_S256x2x512_S256x1x1024
    dot_S256x1x1024_S512x1024_S256x1x512_2_1_01_0_n_n_wf dot_S256x1x1024_S512x1024_S256x1x512_2_1_01_0_n_n rfl
    bcast_S512_S1x1x512_2 bcast_S1x1x512_S256x1x512_0_1_2 X w1 (rd2 W2) (rd1 b2) k hA
    (fun c κ => (rd2_ix2 W2 c κ).symm) (fun c => (rd1_ix1 b2 c).symm) t j c

/-- The whole chain over a general gathered array: the last level, one node per tree, at (t, 0, c) is level 8 of the
    recursion at row t. -/
theorem chain_eq (x : FVec Ideal S256x256x300 .f32) (W1 : FVec Ideal S512x300 .f32) (W2 : FVec Ideal S512x1024 .f32)
    (b2 : FVec Ideal S512 .f32) (t : Fin 256) (j : Fin 1) (c : Fin 512) :
    RefTerm.level1 (F := Ideal) (RefTerm.level2 (RefTerm.level4 (RefTerm.level8 (RefTerm.level16 (RefTerm.level32
        (RefTerm.level64 (RefTerm.level128 (RefTerm.leaf x W1) W2 b2) W2 b2) W2 b2) W2 b2) W2 b2) W2 b2) W2 b2) W2 b2 (ix3 t j c)
      = lvl (rows x) (rd2 W1) (rd2 W2) (rd1 b2) 8 (t.val * 1 + j.val) c.val :=
  level1_eq W2 b2 _ _ 7 _ (level2_eq W2 b2 _ _ 6 _ (level4_eq W2 b2 _ _ 5 _ (level8_eq W2 b2 _ _ 4 _
    (level16_eq W2 b2 _ _ 3 _ (level32_eq W2 b2 _ _ 2 _ (level64_eq W2 b2 _ _ 1 _ (level128_eq W2 b2 _ _ 0 _
      (leaf_eq x W1 (rd2 W2) (rd1 b2))))))))) t j c

/-- The reference's result is the root of every tree: the final reshape of [256, 1, 512] to [256, 512] reads the last
    level at (t, 0, c), the index with the same row-major position as (t, c). -/
theorem out_eq_root (ids : IVec S256x256 32) (emb : FVec Ideal S50000x300 .f32) (W1 : FVec Ideal S512x300 .f32)
    (W2 : FVec Ideal S512x1024 .f32) (b2 : FVec Ideal S512 .f32) :
    Cert.ReferenceIdeal.RefTerm.out (F := Ideal) ids emb W1 W2 b2
      = Cert.PairTree.root (Cert.ReferenceIdeal.RefTerm.take (F := Ideal) emb ids) W1 W2 b2 := by
  funext i
  obtain ⟨t, c, rfl⟩ : ∃ (t : Fin 256) (c : Fin 512), i = ix2 t c := ⟨i 0, i 1, eq_ix2 i⟩
  unfold RefTerm.out
  generalize RefTerm.take (F := Ideal) emb ids = x
  have hpos : (S256x1x512.rowMajor (ix3 t (0 : Fin 1) c)).val = (S256x512.rowMajor (ix2 t c)).val := by
    rw [Shape.rowMajor_val_three, Shape.rowMajor_val_two]
    show (t.val * 1 + 0) * 512 + c.val = t.val * 512 + c.val
    omega
  rw [shapeCast_apply _ shapeCasts_S256x1x512_S256x512 (ix2 t c) (ix3 t (0 : Fin 1) c) hpos,
    chain_eq x W1 W2 b2 t (0 : Fin 1) c]
  show lvl (rows x) (rd2 W1) (rd2 W2) (rd1 b2) 8 (t.val * 1 + 0) c.val = lvl (rows x) (rd2 W1) (rd2 W2) (rd1 b2) 8 t.val c.val
  rw [Nat.mul_one, Nat.add_zero]

end Cert.ReferenceIdeal.RefValue

end
-- ==== Proof.lean ====
/-
  A batch of 256 complete binary trees of 256 leaves each (a recursive network): every leaf is an embedding row gathered
  by its word id and projected by W1; every inner node is W2 applied to its two children's hidden vectors side by side,
  plus the bias b2; the result is each tree's root vector. The kernel computes it sixteen trees at a time as matrix
  products on [R, 1024] pair matrices; the reference computes it on [256, n, 1024] pair tensors. Over the extended reals
  both are the same recursion on rows (the pair of row r is rows 2r and 2r + 1 one level below), read at an index:
  the kernel's result array and the reference's are one function of the arguments. No law of arithmetic beyond the
  order of the terms inside each sum's factors is used, so the inputs' finiteness is never needed; the gather is the same
  term on both sides and is never opened.

  The three frames: the two kernel programs' are the generated frames; the reference's is its run with the result
  dropped. The idealization rewrote nothing, so it is preserved trivially.
-/
import proofs.«174901_j25589415149692_1_alg».proof.Defs
import proofs.«174901_j25589415149692_1_alg».proof.Proof.Gen.Kernel
import proofs.«174901_j25589415149692_1_alg».proof.Proof.Gen.Kernel.Skeleton
import proofs.«174901_j25589415149692_1_alg».proof.Proof.Gen.Kernel.Launch
import proofs.«174901_j25589415149692_1_alg».proof.Proof.Gen.Kernel.Points
import proofs.«174901_j25589415149692_1_alg».proof.Proof.Gen.Kernel.Frame
import proofs.«174901_j25589415149692_1_alg».proof.Proof.Gen.KernelIdeal
import proofs.«174901_j25589415149692_1_alg».proof.Proof.Gen.KernelIdeal.Skeleton
import proofs.«174901_j25589415149692_1_alg».proof.Proof.Gen.KernelIdeal.Launch
import proofs.«174901_j25589415149692_1_alg».proof.Proof.Gen.KernelIdeal.Points
import proofs.«174901_j25589415149692_1_alg».proof.Proof.Gen.KernelIdeal.Frame
import proofs.«174901_j25589415149692_1_alg».proof.Proof.Gen.ReferenceIdeal
import proofs.«174901_j25589415149692_1_alg».proof.Proof.Gen.Pre_finite_inputs
import proofs.«174901_j25589415149692_1_alg».proof.Proof.KernelValue
import proofs.«174901_j25589415149692_1_alg».proof.Proof.RefRun
import proofs.«174901_j25589415149692_1_alg».proof.Proof.RefValue
import Idealize.ShloMosaic.Adequacy
import Idealize.ShloMosaic.Init

noncomputable section

namespace Cert.Proof

open Idealize.ShloMosaic Idealize.SL.Sem

attribute [local irreducible] Host.reduce Host.gather in
/-- The two programs spell the gather with the same operations: one array of gathered rows. -/
theorem take_eq (emb : FVec Ideal Cert.KernelIdeal.S50000x300 .f32) (ids : IVec Cert.KernelIdeal.S256x256 32) :
    Cert.KernelIdeal.TreeValue.take (F := Ideal) emb ids = Cert.ReferenceIdeal.RefTerm.take (F := Ideal) emb ids := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both runs end with the root of every tree over the same gathered rows and parameters. -/
theorem algebraic : Cert.algebraic_KernelIdeal_ReferenceIdeal := by
  intro m ρ m' ρ' _ hagree
  refine ⟨fun c => Cert.KernelIdeal.TreeValue.result m c, Cert.KernelIdeal.TreeValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4⟩ := hagree c
  rw [a0, a1, a2, a3, a4, Cert.ReferenceIdeal.RefValue.out_eq_root]
  exact congrArg (fun x => Cert.PairTree.root x _ _ _) (take_eq _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
